-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x41600 : Shape := ⟨2, ![4096, 41600]⟩
abbrev S256x41600 : Shape := ⟨2, ![256, 41600]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩

class Facts : Prop where
  bcast_S_S4096x41600 : S_.BroadcastsInDim S4096x41600 (![] : Fin 0 → Fin S4096x41600.rank)
  reducesTo_S4096x41600_S_d0_1 : S4096x41600.ReducesTo [0, 1] S_
  h_S_ : 0 < S_.numel
  bcast_S_S256x41600 : S_.BroadcastsInDim S256x41600 (![] : Fin 0 → Fin S256x41600.rank)
  reducesTo_S256x41600_S_d0_1 : S256x41600.ReducesTo [0, 1] S_
  bcast_S_S256 : S_.BroadcastsInDim S256 (![] : Fin 0 → Fin S256.rank)
  reducesTo_S256_S_d0 : S256.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S32 .f32) (main_arg8 : FVec F S1x32 .f32) (main_arg9 : FVec F S1 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S1x32 .f32 := Host.absf main_arg8
  let main_cst_14 : FVec F S_ .f32 := constant S_ .f32 0x7F800000#32
  let main_v40 : FVec F S1x32 .f32 := broadcastInDim S1x32 ![] bcast_S_S1x32 main_cst_14
  let main_v41 : IVec S1x32 1 := cmpf .olt main_v39 main_v40
  let main_c_15 : IVec S_ 1 := constantI S_ 1 1#1
  let main_v42 : IVec S_ 1 := (fun x v => Host.reduce IntOp.andi x v reducesTo_S1x32_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S32x512 .f32) (main_arg5 : FVec F S32 .f32) (main_arg6 : FVec F S32x32 .f32) (main_arg7 : FVec F S32 .f32) (main_arg8 : FVec F S1x32 .f32) (main_arg9 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S32x512 .f32 := Host.absf main_arg4
  let main_cst_6 : FVec F S_ .f32 := constant S_ .f32 0x7F800000#32
  let main_v20 : FVec F S32x512 .f32 := broadcastInDim S32x512 ![] bcast_S_S32x512 main_cst_6
  let main_v21 : IVec S32x512 1 := cmpf .olt main_v19 main_v20
  let main_c_7 : IVec S_ 1 := constantI S_ 1 1#1
  let main_v22 : IVec S_ 1 := (fun x v => Host.reduce IntOp.andi x v reducesTo_S32x512_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x41600 .f32) (main_arg1 : FVec F S4096x41600 .f32) (main_arg2 : FVec F S256x41600 .f32) (main_arg3 : FVec F S256 .f32) (main_arg4 : FVec F S32x512 .f32) (main_arg5 : FVec F S32 .f32) (main_arg6 : FVec F S32x32 .f32) (main_arg7 : FVec F S32 .f32) (main_arg8 : FVec F S1x32 .f32) (main_arg9 : FVec F S1 .f32) : IVec S_ 1 :=
  let main_v0 : FVec F S4096x41600 .f32 := Host.absf main_arg0
  let main_cst : FVec F S_ .f32 := constant S_ .f32 0x7F800000#32
  let main_v1 : FVec F S4096x41600 .f32 := broadcastInDim S4096x41600 ![] bcast_S_S4096x41600 main_cst
  let main_v2 : IVec S4096x41600 1 := cmpf .olt main_v0 main_v1
  let main_c : IVec S_ 1 := constantI S_ 1 1#1
  let main_v3 : IVec S_ 1 := (fun x v => Host.reduce IntOp.andi x v reducesTo_S4096x41600_S_d0_1 h_S_) main_v2 main_c
  let main_v4 : FVec F S4096x41600 .f32 := Host.absf main_arg1
  let main_cst_0 : FVec F S_ .f32 := constant S_ .f32 0x7F800000#32
  let main_v5 : FVec F S4096x41600 .f32 := broadcastInDim S4096x41600 ![] bcast_S_S4096x41600 main_cst_0
  let main_v6 : IVec S4096x41600 1 := cmpf .olt main_v4 main_v5
  let main_c_1 : IVec S_ 1 := constantI S_ 1 1#1
  let main_v7 : IVec S_ 1 := (fun x v => Host.reduce IntOp.andi x v reducesTo_S4096x41600_S_d0_1 h_S_) main_v6 main_c_1
  let main_v8 : IVec S_ 1 := andi main_v3 main_v7
  let main_v9 : FVec F S256x41600 .f32 := Host.absf main_arg2
  let main_cst_2 : FVec F S_ .f32 := constant S_ .f32 0x7F800000#32
  let main_v10 : FVec F S256x41600 .f32 := broadcastInDim S256x41600 ![] bcast_S_S256x41600 main_cst_2
  let main_v11 : IVec S256x41600 1 := cmpf .olt main_v9 main_v10
  let main_c_3 : IVec S_ 1 := constantI S_ 1 1#1
  let main_v12 : IVec S_ 1 := (fun x v => Host.reduce IntOp.andi x v reducesTo_S256x41600_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S4096x41600 : Shape := ⟨2, ![4096, 41600]⟩
abbrev S256x41600 : Shape := ⟨2, ![256, 41600]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S1x256 : Shape := ⟨2, ![1, 256]⟩
abbrev S1x1 : Shape := ⟨2, ![1, 1]⟩
abbrev S4096x1 : Shape := ⟨2, ![4096, 1]⟩
abbrev S512x1664 : Shape := ⟨2, ![512, 1664]⟩
abbrev S256x1664 : Shape := ⟨2, ![256, 1664]⟩
abbrev S512x1 : Shape := ⟨2, ![512, 1]⟩
abbrev S512x512 : Shape := ⟨2, ![512, 512]⟩
abbrev S1664x256 : Shape := ⟨2, ![1664, 256]⟩
abbrev S512x256 : Shape := ⟨2, ![512, 256]⟩
abbrev S1x512 : Shape := ⟨2, ![1, 512]⟩
abbrev S512x32 : Shape := ⟨2, ![512, 32]⟩
abbrev S32x1 : Shape := ⟨2, ![32, 1]⟩

abbrev nBuf : Space → Nat
  | .hbm => 15
  | .vmem => 16
  | .smem => 0
  | _ => 0

abbrev bufTy : (tb : Table) → Fin (tcTables nBuf tb) → BufTy
  | .hbm, ⟨0, _⟩ => ⟨S4096x41600, .f32⟩
  | .hbm, ⟨1, _⟩ => ⟨S4096x41600, .f32⟩
  | .hbm, ⟨2, _⟩ => ⟨S256x41600, .f32⟩
  | .hbm, ⟨3, _⟩ => ⟨S256, .f32⟩
  | .hbm, ⟨4, _⟩ => ⟨S32x512, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S1x32, .f32⟩
  | .hbm, ⟨9, _⟩ => ⟨S1, .f32⟩
  | .hbm, ⟨10, _⟩ => ⟨S1x256, .f32⟩
  | .hbm, ⟨11, _⟩ => ⟨S1x32, .f32⟩
  | .hbm, ⟨12, _⟩ => ⟨S1x32, .f32⟩
  | .hbm, ⟨13, _⟩ => ⟨S1x1, .f32⟩
  | .hbm, ⟨14, _⟩ => ⟨S4096x1, .f32⟩
  | .local _ .vmem, ⟨0, _⟩ => ⟨S512x1664, .f32⟩
  | .local _ .vmem, ⟨1, _⟩ => ⟨S512x1664, .f32⟩
  | .local _ .vmem, ⟨2, _⟩ => ⟨S512x1664, .f32⟩
  | .local _ .vmem, ⟨3, _⟩ => ⟨S512x1664, .f32⟩
  | .local _ .vmem, ⟨4, _⟩ => ⟨S256x1664, .f32⟩
  | .local _ .vmem, ⟨5, _⟩ => ⟨S256x1664, .f32⟩
  | .local _ .vmem, ⟨6, _⟩ => ⟨S1x256, .f32⟩
  | .local _ .vmem, ⟨7, _⟩ => ⟨S32x512, .f32⟩
  | .local _ .vmem, ⟨8, _⟩ => ⟨S1x32, .f32⟩
  | .local _ .vmem, ⟨9, _⟩ => ⟨S32x32, .f32⟩
  | .local _ .vmem, ⟨10, _⟩ => ⟨S1x32, .f32⟩
  | .local _ .vmem, ⟨11, _⟩ => ⟨S1x32, .f32⟩
  | .local _ .vmem, ⟨12, _⟩ => ⟨S1x1, .f32⟩
  | .local _ .vmem, ⟨13, _⟩ => ⟨S512x1, .f32⟩
  | .local _ .vmem, ⟨14, _⟩ => ⟨S512x1, .f32⟩
  | .local _ .vmem, ⟨15, _⟩ => ⟨S512x512, .f32⟩
  | _, _ => ⟨S4096x41600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![8, 25], ![false, false]⟩

def k0_cond2 (i : grid0.Coords) : BitVec 1 :=
  let arg1 : BitVec 32 := BitVec.ofNat 32 (i 1).val
  let c24_i32 : BitVec 32 := 24#32
  let v22 : BitVec 1 := Scalar.cmpi .eq arg1 c24_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1664 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  shapeCasts_S256_S1x256 : S256.ShapeCasts S1x256
  shapeCasts_S32_S1x32 : S32.ShapeCasts S1x32
  shapeCasts_S1_S1x1 : S1.ShapeCasts S1x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1664_S512x1664_0_0 : ∀ a, (![0, 0] : Fin 2 → Nat) a + S512x1664.size a ≤ S512x1664.size a
  h_S512x1664 : 0 < S512x1664.numel
  bitsLt_bf16_f32 : FTy.bits .bf16 < FTy.bits .f32
  inb_S256x1664_S256x1664_0_0 : ∀ a, (![0, 0] : Fin 2 → Nat) a + S256x1664.size a ≤ S256x1664.size a
  h_S256x1664 : 0 < S256x1664.numel
  transposes_S256x1664_p1_0_S1664x256 : S256x1664.Transposes [1, 0] S1664x256
  inb_S512x512_S512x256_0_0 : ∀ a, (![0, 0] : Fin 2 → Nat) a + S512x256.size a ≤ S512x512.size a
  h_S512x256 : 0 < S512x256.numel
  shapeCasts_S512x256_S512x256 : S512x256.ShapeCasts S512x256
  inb_S512x512_S512x256_0_256 : ∀ a, (![0, 256] : Fin 2 → Nat) a + S512x256.size a ≤ S512x512.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  concatenates_S1x256_S1x256_S1x512_d1 : Shape.Concatenates [S1x256, S1x256] S1x512 1
  broadcasts_S1x512_S512x512 : S1x512.Broadcasts S512x512
  inb_S32x512_S32x512_0_0 : ∀ a, (![0, 0] : Fin 2 → Nat) a + S32x512.size a ≤ S32x512.size a
  h_S32x512 : 0 < S32x512.numel
  transposes_S32x512_p1_0_S512x32 : S32x512.Transposes [1, 0] S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  transposes_S1x32_p1_0_S32x1 : S1x32.Transposes [1, 0] S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S512x1664_S1664x256_S512x256_1_0_0_1_n_n_wf : DotDims.WF S512x1664 S1664x256 S512x256 [1] [0] [0] [1] [] []
  dot_S512x512_S512x32_S512x32_1_0_0_1_n_n_wf : DotDims.WF S512x512 S512x32 S512x32 [1] [0] [0] [1] [] []
  dot_S512x32_S32x32_S512x32_1_0_0_1_n_n_wf : DotDims.WF S512x32 S32x32 S512x32 [1] [0] [0] [1] [] []
  dot_S512x32_S32x1_S512x1_1_0_0_1_n_n_wf : DotDims.WF S512x32 S32x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1664.size a ≤ S4096x41600.size a
  hwx0_0 : ∀ i : grid0.Coords, EltTy.bits .f32 = 32 ∨ (Rect.block (s := S4096x41600) S512x1664.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1664.size a ≤ S4096x41600.size a
  hwx0_1 : ∀ i : grid0.Coords, EltTy.bits .f32 = 32 ∨ (Rect.block (s := S4096x41600) S512x1664.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1664.size a ≤ S256x41600.size a
  hwx0_2 : ∀ i : grid0.Coords, EltTy.bits .f32 = 32 ∨ (Rect.block (s := S256x41600) S256x1664.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x512.size a ≤ S32x512.size a
  hwx0_4 : ∀ i : grid0.Coords, EltTy.bits .f32 = 32 ∨ (Rect.block (s := S32x512) S32x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1.size a ≤ S4096x1.size a
  hwx0_10 : ∀ i : grid0.Coords, EltTy.bits .f32 = 32 ∨ (Rect.block (s := S4096x1) S512x1.size (cc0_transform_10 i) (hinb0_10 i)).WholeWords (EltTy.packing .f32)

variable [Facts₀]

def dot_S512x1664_S1664x256_S512x256_1_0_0_1_n_n : DotDims S512x1664 S1664x256 S512x256 where
  lhsContracting := [1]
  rhsContracting := [0]
  lhsNonContracting := [0]
  rhsNonContracting := [1]
  lhsBatch := []
  rhsBatch := []
  wf := dot_S512x1664_S1664x256_S512x256_1_0_0_1_n_n_wf
def dot_S512x512_S512x32_S512x32_1_0_0_1_n_n : DotDims S512x512 S512x32 S512x32 where
  lhsContracting := [1]
  rhsContracting := [0]
  lhsNonContracting := [0]
  rhsNonContracting := [1]
  lhsBatch := []
  rhsBatch := []
  wf := dot_S512x512_S512x32_S512x32_1_0_0_1_n_n_wf
def dot_S512x32_S32x32_S512x32_1_0_0_1_n_n : DotDims S512x32 S32x32 S512x32 where
  lhsContracting := [1]
  rhsContracting := [0]
  lhsNonContracting := [0]
  rhsNonContracting := [1]
  lhsBatch := []
  rhsBatch := []
  wf := dot_S512x32_S32x32_S512x32_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

abbrev win0_0 : Pipeline.Window sig grid0 :=
  Pipeline.Window.ofSpec (Memref.whole main_arg0) S512x1664.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1664.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1664.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S512x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S4096x41600 : Shape := ⟨2, ![4096, 41600]⟩
abbrev S256x41600 : Shape := ⟨2, ![256, 41600]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S41600x256 : Shape := ⟨2, ![41600, 256]⟩
abbrev S4096x256 : Shape := ⟨2, ![4096, 256]⟩
abbrev S1x256 : Shape := ⟨2, ![1, 256]⟩
abbrev S4096x512 : Shape := ⟨2, ![4096, 512]⟩
abbrev S_ : Shape := ⟨0, ![]⟩
abbrev S512x32 : Shape := ⟨2, ![512, 32]⟩
abbrev S4096x32 : Shape := ⟨2, ![4096, 32]⟩
abbrev S32x1 : Shape := ⟨2, ![32, 1]⟩
abbrev S4096x1 : Shape := ⟨2, ![4096, 1]⟩
abbrev S1x1 : Shape := ⟨2, ![1, 1]⟩

abbrev nBuf : Space → Nat
  | .hbm => 111
  | .vmem => 0
  | .smem => 0
  | _ => 0

abbrev bufTy : (tb : Table) → Fin (tcTables nBuf tb) → BufTy
  | .hbm, ⟨0, _⟩ => ⟨S4096x41600, .f32⟩
  | .hbm, ⟨1, _⟩ => ⟨S4096x41600, .f32⟩
  | .hbm, ⟨2, _⟩ => ⟨S256x41600, .f32⟩
  | .hbm, ⟨3, _⟩ => ⟨S256, .f32⟩
  | .hbm, ⟨4, _⟩ => ⟨S32x512, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S1x32, .f32⟩
  | .hbm, ⟨9, _⟩ => ⟨S1, .f32⟩
  | .hbm, ⟨10, _⟩ => ⟨S41600x256, .f32⟩
  | .hbm, ⟨11, _⟩ => ⟨S4096x256, .f32⟩
  | .hbm, ⟨12, _⟩ => ⟨S1x256, .f32⟩
  | .hbm, ⟨13, _⟩ => ⟨S4096x256, .f32⟩
  | .hbm, ⟨14, _⟩ => ⟨S4096x256, .f32⟩
  | .hbm, ⟨15, _⟩ => ⟨S41600x256, .f32⟩
  | .hbm, ⟨16, _⟩ => ⟨S4096x256, .f32⟩
  | .hbm, ⟨17, _⟩ => ⟨S1x256, .f32⟩
  | .hbm, ⟨18, _⟩ => ⟨S4096x256, .f32⟩
  | .hbm, ⟨19, _⟩ => ⟨S4096x256, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S_, .f32⟩
  | .hbm, ⟨37, _⟩ => ⟨S4096x512, .f32⟩
  | .hbm, ⟨38, _⟩ => ⟨S4096x512, .f32⟩
  | .hbm, ⟨39, _⟩ => ⟨S_, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S512x32, .f32⟩
  | .hbm, ⟨47, _⟩ => ⟨S4096x32, .f32⟩
  | .hbm, ⟨48, _⟩ => ⟨S1x32, .f32⟩
  | .hbm, ⟨49, _⟩ => ⟨S4096x32, .f32⟩
  | .hbm, ⟨50, _⟩ => ⟨S4096x32, .f32⟩
  | .hbm, ⟨51, _⟩ => ⟨S_, .f32⟩
  | .hbm, ⟨52, _⟩ => ⟨S4096x32, .f32⟩
  | .hbm, ⟨53, _⟩ => ⟨S4096x32, .f32⟩
  | .hbm, ⟨54, _⟩ => ⟨S_, .f32⟩
  | .hbm, ⟨55, _⟩ => ⟨S4096x32, .f32⟩
  | .hbm, ⟨56, _⟩ => ⟨S4096x32, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4096x32, .f32⟩
  | .hbm, ⟨61, _⟩ => ⟨S4096x32, .f32⟩
  | .hbm, ⟨62, _⟩ => ⟨S_, .f32⟩
  | .hbm, ⟨63, _⟩ => ⟨S4096x32, .f32⟩
  | .hbm, ⟨64, _⟩ => ⟨S4096x32, .f32⟩
  | .hbm, ⟨65, _⟩ => ⟨S4096x32, .f32⟩
  | .hbm, ⟨66, _⟩ => ⟨S_, .f32⟩
  | .hbm, ⟨67, _⟩ => ⟨S4096x32, .f32⟩
  | .hbm, ⟨68, _⟩ => ⟨S4096x32, .f32⟩
  | .hbm, ⟨69, _⟩ => ⟨S_, .f32⟩
  | .hbm, ⟨70, _⟩ => ⟨S4096x32, .f32⟩
  | .hbm, ⟨71, _⟩ => ⟨S4096x32, .f32⟩
  | .hbm, ⟨72, _⟩ => ⟨S_, .f32⟩
  | .hbm, ⟨73, _⟩ => ⟨S4096x32, .f32⟩
  | .hbm, ⟨74, _⟩ => ⟨S4096x32, .f32⟩
  | .hbm, ⟨75, _⟩ => ⟨S4096x32, .f32⟩
  | .hbm, ⟨76, _⟩ => ⟨S32x32, .f32⟩
  | .hbm, ⟨77, _⟩ => ⟨S4096x32, .f32⟩
  | .hbm, ⟨78, _⟩ => ⟨S1x32, .f32⟩
  | .hbm, ⟨79, _⟩ => ⟨S4096x32, .f32⟩
  | .hbm, ⟨80, _⟩ => ⟨S4096x32, .f32⟩
  | .hbm, ⟨81, _⟩ => ⟨S_, .f32⟩
  | .hbm, ⟨82, _⟩ => ⟨S4096x32, .f32⟩
  | .hbm, ⟨83, _⟩ => ⟨S4096x32, .f32⟩
  | .hbm, ⟨84, _⟩ => ⟨S_, .f32⟩
  | .hbm, ⟨85, _⟩ => ⟨S4096x32, .f32⟩
  | .hbm, ⟨86, _⟩ => ⟨S4096x32, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S4096x32, .f32⟩
  | .hbm, ⟨91, _⟩ => ⟨S4096x32, .f32⟩
  | .hbm, ⟨92, _⟩ => ⟨S_, .f32⟩
  | .hbm, ⟨93, _⟩ => ⟨S4096x32, .f32⟩
  | .hbm, ⟨94, _⟩ => ⟨S4096x32, .f32⟩
  | .hbm, ⟨95, _⟩ => ⟨S4096x32, .f32⟩
  | .hbm, ⟨96, _⟩ => ⟨S_, .f32⟩
  | .hbm, ⟨97, _⟩ => ⟨S4096x32, .f32⟩
  | .hbm, ⟨98, _⟩ => ⟨S4096x32, .f32⟩
  | .hbm, ⟨99, _⟩ => ⟨S_, .f32⟩
  | .hbm, ⟨100, _⟩ => ⟨S4096x32, .f32⟩
  | .hbm, ⟨101, _⟩ => ⟨S4096x32, .f32⟩
  | .hbm, ⟨102, _⟩ => ⟨S_, .f32⟩
  | .hbm, ⟨103, _⟩ => ⟨S4096x32, .f32⟩
  | .hbm, ⟨104, _⟩ => ⟨S4096x32, .f32⟩
  | .hbm, ⟨105, _⟩ => ⟨S4096x32, .f32⟩
  | .hbm, ⟨106, _⟩ => ⟨S32x1, .f32⟩
  | .hbm, ⟨107, _⟩ => ⟨S4096x1, .f32⟩
  | .hbm, ⟨108, _⟩ => ⟨S1x1, .f32⟩
  | .hbm, ⟨109, _⟩ => ⟨S4096x1, .f32⟩
  | .hbm, ⟨110, _⟩ => ⟨S4096x1, .f32⟩
  | _, _ => ⟨S4096x41600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_cst_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_v29 : Ref sig .tc := ⟨.hbm, 52, rfl⟩
abbrev main_v30 : Ref sig .tc := ⟨.hbm, 53, rfl⟩
abbrev main_cst_7 : Ref sig .tc := ⟨.hbm, 54, rfl⟩
abbrev main_v31 : Ref sig .tc := ⟨.hbm, 55, rfl⟩
abbrev main_v32 : Ref sig .tc := ⟨.hbm, 56, rfl⟩
abbrev main_cst_8 : Ref sig .tc := ⟨.hbm, 57, rfl⟩
abbrev main_cst_9 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v33 : Ref sig .tc := ⟨.hbm, 64, rfl⟩
abbrev main_v34 : Ref sig .tc := ⟨.hbm, 65, rfl⟩
abbrev main_cst_10 : Ref sig .tc := ⟨.hbm, 66, rfl⟩
abbrev main_v35 : Ref sig .tc := ⟨.hbm, 67, rfl⟩
abbrev main_v36 : Ref sig .tc := ⟨.hbm, 68, rfl⟩
abbrev main_cst_11 : Ref sig .tc := ⟨.hbm, 69, rfl⟩
abbrev main_v37 : Ref sig .tc := ⟨.hbm, 70, rfl⟩
abbrev main_v38 : Ref sig .tc := ⟨.hbm, 71, rfl⟩
abbrev main_cst_12 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_13 : Ref sig .tc := ⟨.hbm, 81, rfl⟩
abbrev main_v47 : Ref sig .tc := ⟨.hbm, 82, rfl⟩
abbrev main_v48 : Ref sig .tc := ⟨.hbm, 83, rfl⟩
abbrev main_cst_14 : Ref sig .tc := ⟨.hbm, 84, rfl⟩
abbrev main_v49 : Ref sig .tc := ⟨.hbm, 85, rfl⟩
abbrev main_v50 : Ref sig .tc := ⟨.hbm, 86, rfl⟩
abbrev main_cst_15 : Ref sig .tc := ⟨.hbm, 87, rfl⟩
abbrev main_cst_16 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_v51 : Ref sig .tc := ⟨.hbm, 94, rfl⟩
abbrev main_v52 : Ref sig .tc := ⟨.hbm, 95, rfl⟩
abbrev main_cst_17 : Ref sig .tc := ⟨.hbm, 96, rfl⟩
abbrev main_v53 : Ref sig .tc := ⟨.hbm, 97, rfl⟩
abbrev main_v54 : Ref sig .tc := ⟨.hbm, 98, rfl⟩
abbrev main_cst_18 : Ref sig .tc := ⟨.hbm, 99, rfl⟩
abbrev main_v55 : Ref sig .tc := ⟨.hbm, 100, rfl⟩
abbrev main_v56 : Ref sig .tc := ⟨.hbm, 101, rfl⟩
abbrev main_cst_19 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩

abbrev nD : Nat := 1
abbrev τ : Topo := Topo.v7x

variable {F : FTy → Type} [FloatOps F]

class Facts₀ : Prop where
  transposes_S256x41600_S41600x256_1_0 : S256x41600.Transposes [1, 0] S41600x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  concatenates_S4096x256_S4096x256_S4096x512_d1 : Shape.Concatenates [S4096x256, S4096x256] S4096x512 1
  bcast_S_S4096x512 : S_.BroadcastsInDim S4096x512 (![] : Fin 0 → Fin S4096x512.rank)
  transposes_S32x512_S512x32_1_0 : S32x512.Transposes [1, 0] S512x32
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x41600_S41600x256_S4096x256_1_0_0_1_n_n_wf : DotDims.WF S4096x41600 S41600x256 S4096x256 [1] [0] [0] [1] [] []
  dot_S4096x512_S512x32_S4096x32_1_0_0_1_n_n_wf : DotDims.WF S4096x512 S512x32 S4096x32 [1] [0] [0] [1] [] []
  dot_S4096x32_S32x32_S4096x32_1_0_0_1_n_n_wf : DotDims.WF S4096x32 S32x32 S4096x32 [1] [0] [0] [1] [] []
  dot_S4096x32_S32x1_S4096x1_1_0_0_1_n_n_wf : DotDims.WF S4096x32 S32x1 S4096x1 [1] [0] [0] [1] [] []

variable [Facts₀]

def dot_S4096x41600_S41600x256_S4096x256_1_0_0_1_n_n : DotDims S4096x41600 S41600x256 S4096x256 where
  lhsContracting := [1]
  rhsContracting := [0]
  lhsNonContracting := [0]
  rhsNonContracting := [1]
  lhsBatch := []
  rhsBatch := []
  wf := dot_S4096x41600_S41600x256_S4096x256_1_0_0_1_n_n_wf
def dot_S4096x512_S512x32_S4096x32_1_0_0_1_n_n : DotDims S4096x512 S512x32 S4096x32 where
  lhsContracting := [1]
  rhsContracting := [0]
  lhsNonContracting := [0]
  rhsNonContracting := [1]
  lhsBatch := []
  rhsBatch := []
  wf := dot_S4096x512_S512x32_S4096x32_1_0_0_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

class Facts : Prop extends Facts₀ where

variable [Facts]
-- ==== Proof.Net.lean ====
/-
  The network's value on one batch row, over the extended reals.

  A row of the batch carries two feature rows `x₁ x₂` of 41600 numbers each. The feature transform multiplies both by
  the same 256 × 41600 matrix and adds the same bias, and lays the two results side by side: 512 numbers. Three dense
  layers follow (512 → 32 → 32 → 1), the first two followed by the clipped leaky ramp
  `lcl x = s · min x 0 + min 1 (max 0 x) + s · (max x 1 − 1)`, which is also applied to the transform's output.
  The slope `s`, zero and one are kept as the float words both programs spell, so no word is ever evaluated.

  The second half of the file is the one law that joins a contraction done block by block to the contraction done
  at once: a sum over `nb · bs` positions is the sum over `nb` blocks of the sums inside the blocks. It holds in
  any commutative monoid, so on the extended reals it needs no finiteness.
-/
import Idealize.ShloMosaic.Lib.ValueIdx
import Idealize.ShloMosaic.PureOps.Ideal.Laws
import Mathlib.Algebra.BigOperators.Fin

noncomputable section

namespace Cert.Net

open Idealize.ShloMosaic

/-- The ramp's slope, as the word both programs carry. -/
abbrev slope : EReal := Ideal.ofBits .f32 0x3C23D70A#32
/-- The word of zero. -/
abbrev zeroW : EReal := Ideal.ofBits .f32 0x00000000#32
/-- The word of one. -/
abbrev oneW : EReal := Ideal.ofBits .f32 0x3F800000#32

/-- The clipped leaky ramp: slope `s` below zero, the identity on [0, 1], slope `s` above one. -/
def lcl (x : EReal) : EReal :=
  slope * min x zeroW + min oneW (max zeroW x) + slope * (max x oneW - oneW)

/-- One dense layer on a row: entry `n` is `∑ k, h k · W n k + b n` (the weight matrix stored output-major). -/
def lin {K N : ℕ} (h : Fin K → EReal) (W : Fin N → Fin K → EReal) (b : Fin N → EReal) (n : Fin N) : EReal :=
  ∑ k : Fin K, h k * W n k + b n

theorem lin_congr {K N : ℕ} {h h' : Fin K → EReal} (e : ∀ k, h k = h' k) (W : Fin N → Fin K → EReal)
    (b : Fin N → EReal) (n : Fin N) : lin h W b n = lin h' W b n := by
  rw [show h = h' from funext e]

/-- The feature transform of a row: entries 0 … 255 from `x₁`, entries 256 … 511 from `x₂`, the same matrix and
    bias for both. -/
def ft (x₁ x₂ : Fin 41600 → EReal) (W : Fin 256 → Fin 41600 → EReal) (b : Fin 256 → EReal) (j : Fin 512) : EReal :=
  if h : j.val < 256 then lin x₁ W b ⟨j.val, h⟩
  else lin x₂ W b ⟨j.val - 256, by have := j.isLt; omega⟩

/-- The whole network on one row. -/
def net (x₁ x₂ : Fin 41600 → EReal) (W : Fin 256 → Fin 41600 → EReal) (b : Fin 256 → EReal)
    (W₁ : Fin 32 → Fin 512 → EReal) (b₁ : Fin 32 → EReal) (W₂ : Fin 32 → Fin 32 → EReal) (b₂ : Fin 32 → EReal)
    (Wo : Fin 1 → Fin 32 → EReal) (bo : Fin 1 → EReal) : EReal :=
  lin (fun j => lcl (lin (fun j => lcl (lin (fun j => lcl (ft x₁ x₂ W b j)) W₁ b₁ j)) W₂ b₂ j)) Wo bo 0

/-- The result array as one function of the ten argument arrays: entry `(r, 0)` is the network on batch row `r`. -/
def G (X₁ X₂ : FVec Ideal ⟨2, ![4096, 41600]⟩ .f32) (W : FVec Ideal ⟨2, ![256, 41600]⟩ .f32) (b : FVec Ideal ⟨1, ![256]⟩ .f32)
    (W₁ : FVec Ideal ⟨2, ![32, 512]⟩ .f32) (b₁ : FVec Ideal ⟨1, ![32]⟩ .f32) (W₂ : FVec Ideal ⟨2, ![32, 32]⟩ .f32)
    (b₂ : FVec Ideal ⟨1, ![32]⟩ .f32) (Wo : FVec Ideal ⟨2, ![1, 32]⟩ .f32) (bo : FVec Ideal ⟨1, ![1]⟩ .f32) :
    FVec Ideal ⟨2, ![4096, 1]⟩ .f32 := fun i =>
  net (fun K => X₁ (ValueIdx.ix2 (i 0) K)) (fun K => X₂ (ValueIdx.ix2 (i 0) K)) (fun j K => W (ValueIdx.ix2 j K))
    (fun j => b (ValueIdx.ix1 j)) (fun n k => W₁ (ValueIdx.ix2 n k)) (fun n => b₁ (ValueIdx.ix1 n))
    (fun n k => W₂ (ValueIdx.ix2 n k)) (fun n => b₂ (ValueIdx.ix1 n)) (fun n k => Wo (ValueIdx.ix2 n k))
    (fun n => bo (ValueIdx.ix1 n))

/-! ## A contraction done block by block -/

/-- A sum over the first `nb · bs` naturals is the sum over `nb` blocks of `bs` consecutive ones. -/
theorem sum_range_blocks {M : Type*} [AddCommMonoid M] (bs : ℕ) (g : ℕ → M) :
    ∀ nb : ℕ, ∑ K ∈ Finset.range (nb * bs), g K = ∑ s ∈ Finset.range nb, ∑ x ∈ Finset.range bs, g (bs * s + x)
  | 0 => by simp
  | nb + 1 => by
    rw [Nat.succ_mul, Finset.sum_range_add, sum_range_blocks bs g nb, Finset.sum_range_succ, Nat.mul_comm nb bs]

/-- The same over `Fin`: positions `K < nb · bs` against blocks `s < nb` and offsets `x : Fin bs`. -/
theorem sum_fin_blocks {M : Type*} [AddCommMonoid M] (nb bs : ℕ) (g : ℕ → M) :
    ∑ K : Fin (nb * bs), g K.val = ∑ s ∈ Finset.range nb, ∑ x : Fin bs, g (bs * s + x.val) := by
  rw [Fin.sum_univ_eq_sum_range (fun K => g K) (nb * bs), sum_range_blocks bs g nb]
  refine Finset.sum_congr rfl fun s _ => ?_
  exact (Fin.sum_univ_eq_sum_range (fun x => g (bs * s + x)) bs).symm

end Cert.Net

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.KVal.lean ====
/-
  The kernel body's arithmetic, read at an index over the extended reals.

  A change of float format is the identity here, so a product of a tile with a transposed, output-major weight block
  read at (r, j) is the plain sum `∑ k, x (r, k) · w (j, k)`. The accumulator's two halves each add one column block's
  such sum to what they held. At a row tile's last column block the body adds the transform's bias (its 256 entries
  laid twice side by side), applies the clipped leaky ramp, and runs the three dense layers; the ramp's three terms are
  spread over two payloads, and put together they are the ramp of the first layer's pre-activation.
-/
import proofs.«156107_j63977832841234_1_alg».proof.Proof.Gen.KernelIdeal.Skeleton
import proofs.«156107_j63977832841234_1_alg».proof.Proof.Net
import proofs.«156107_j63977832841234_1_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KVal

open Cert.KernelIdeal Cert.KernelIdeal.Gen Idealize.ShloMosaic Idealize.ShloMosaic.ValueIdx

variable [Cert.KernelIdeal.Facts]

theorem dotA_plain : dot_S512x1664_S1664x256_S512x256_1_0_0_1_n_n = DotDims.plain 512 1664 256 := rfl
theorem dot1_plain : dot_S512x512_S512x32_S512x32_1_0_0_1_n_n = DotDims.plain 512 512 32 := rfl
theorem dot2_plain : dot_S512x32_S32x32_S512x32_1_0_0_1_n_n = DotDims.plain 512 32 32 := rfl
theorem dotO_plain : dot_S512x32_S32x1_S512x1_1_0_0_1_n_n = DotDims.plain 512 32 1 := rfl

/-- A tile's product with a transposed, output-major weight block, read at (r, j): the sum over the block's columns. -/
theorem mm_apply {M K N : ℕ} (x : FVec Ideal ⟨2, ![M, K]⟩ .f32) (w : FVec Ideal ⟨2, ![N, K]⟩ .f32)
    (hb : FTy.bits .bf16 < FTy.bits .f32) (ht : (⟨2, ![N, K]⟩ : Shape).Transposes [1, 0] ⟨2, ![K, N]⟩) (r : Fin M) (j : Fin N) :
    matmul (DotDims.plain M K N) none (truncf .bf16 x hb) (transpose ⟨2, ![K, N]⟩ [1, 0] (truncf .bf16 w hb) ht)
        (constant (F := Ideal) ⟨2, ![M, N]⟩ .f32 0x00000000#32) (ix2 r j)
      = ∑ k : Fin K, x (ix2 r k) * w (ix2 j k) := by
  refine (Cert.LibDense.matmul_plain_zero_apply none _ _ r j).trans (Finset.sum_congr rfl fun k _ => ?_)
  rw [truncf_apply, transpose_ix2_apply, truncf_apply]

/-- One column block's contribution added to what the left half of the accumulator held. -/
theorem pay3_apply (v3 : Vec Ideal S512x1664 .f32) (v7 : Vec Ideal S256x1664 .f32) (v12 : Vec Ideal S512x256 .f32)
    (r : Fin 512) (j : Fin 256) :
    k0_pay3 (F := Ideal) v3 v7 v12 (ix2 r j) = v12 (ix2 r j) + ∑ kk : Fin 1664, v3 (ix2 r kk) * v7 (ix2 j kk) := by
  unfold k0_pay3 k0_pay2
  simp only [shapeCast_self]
  rw [addf_apply, dotA_plain]
  exact congrArg _ (mm_apply v3 v7 _ _ r j)

/-- The same for the right half, from the second feature block. -/
theorem pay4_apply (v5 : Vec Ideal S512x1664 .f32) (v7 : Vec Ideal S256x1664 .f32) (v17 : Vec Ideal S512x256 .f32)
    (r : Fin 512) (j : Fin 256) :
    k0_pay4 (F := Ideal) v5 v7 v17 (ix2 r j) = v17 (ix2 r j) + ∑ kk : Fin 1664, v5 (ix2 r kk) * v7 (ix2 j kk) := by
  unfold k0_pay4 k0_pay2
  simp only [shapeCast_self]
  rw [addf_apply, dotA_plain]
  exact congrArg _ (mm_apply v5 v7 _ _ r j)

/-- The reset value: the zero word everywhere. -/
theorem pay1_apply (i : S512x512.Idx) : k0_pay1 (F := Ideal) i = Cert.Net.zeroW := by
  unfold k0_pay1
  simp only [shapeCast_self]
  rfl

/-- The transform's bias row laid twice side by side: entry `j` of the 512 is entry `j mod 256` of the 256. -/
def cat2 (v : FVec Ideal ⟨2, ![1, 256]⟩ .f32) (j : Fin 512) : EReal :=
  if h : j.val < 256 then v (ix2 (0 : Fin 1) ⟨j.val, h⟩)
  else v (ix2 (0 : Fin 1) ⟨j.val - 256, by have := j.isLt; omega⟩)

theorem cat2_apply (v : FVec Ideal S1x256 .f32) (h : Shape.Concatenates [S1x256, S1x256] S1x512 1) (j : Fin 512) :
    concatenate S1x512 1 [⟨S1x256, v⟩, ⟨S1x256, v⟩] h (ix2 (0 : Fin 1) j) = cat2 v j := by
  unfold cat2
  split
  · next hj =>
    exact concatenate_pair_apply_left (1 : Fin 2) v v h (ix2 (0 : Fin 1) j) rfl (ix2 (0 : Fin 1) ⟨j.val, hj⟩)
      (fun b => by match b with | ⟨0, _⟩ => rfl | ⟨1, _⟩ => rfl)
  · next hj =>
    exact concatenate_pair_apply_right (1 : Fin 2) v v h (ix2 (0 : Fin 1) j) rfl rfl
      (ix2 (0 : Fin 1) ⟨j.val - 256, by have := j.isLt; omega⟩)
      (fun b hb => by match b with | ⟨0, _⟩ => rfl | ⟨1, _⟩ => exact absurd rfl hb)
      (by show (j.val - 256) + 256 = j.val; omega)

/-- The first dense layer's pre-activation on the tile's row `r`: the accumulator plus the doubled bias, through the
    ramp, against the output-major weights, plus the layer's bias row. -/
theorem pay6_apply (v25 : Vec Ideal S1x256 .f32) (v28 : Vec Ideal S512x512 .f32) (v47 : Vec Ideal S32x512 .f32)
    (v52 : Vec Ideal S1x32 .f32) (r : Fin 512) (n : Fin 32) :
    k0_pay6 (F := Ideal) v25 v28 v47 v52 (ix2 r n)
      = Cert.Net.lin (fun j => Cert.Net.lcl (v28 (ix2 r j) + cat2 v25 j)) (fun n k => v47 (ix2 n k))
          (fun n => v52 (ix2 (0 : Fin 1) n)) n := by
  unfold k0_pay6
  simp only [shapeCast_self]
  rw [addf_apply, dot1_plain, broadcastTo_1b_ab_apply]
  unfold Cert.Net.lin
  refine congrArg (· + _) ((mm_apply _ v47 _ _ r n).trans (Finset.sum_congr rfl fun k _ => congrArg (· * _) ?_))
  show Cert.Net.lcl (v28 (ix2 r k) + broadcastTo S512x512 _ _ (ix2 r k)) = _
  rw [broadcastTo_1b_ab_apply, cat2_apply, shapeCast_self]

/-- The first two terms of the ramp applied to the first layer's pre-activation. -/
theorem pay7_apply (v25 : Vec Ideal S1x256 .f32) (v28 : Vec Ideal S512x512 .f32) (v47 : Vec Ideal S32x512 .f32)
    (v52 : Vec Ideal S1x32 .f32) (i : S512x32.Idx) :
    k0_pay7 (F := Ideal) v25 v28 v47 v52 i
      = Cert.Net.slope * min (k0_pay6 (F := Ideal) v25 v28 v47 v52 i) Cert.Net.zeroW
        + min Cert.Net.oneW (max Cert.Net.zeroW (k0_pay6 (F := Ideal) v25 v28 v47 v52 i)) := rfl

/-- The second and third layers on the tile's row `r`, from the first layer's pre-activation `v55` and the two-term
    partial ramp `v64` of it: the ramp's third term is added, the 32 × 32 layer and its ramp follow, and the last
    contraction against the one output row of weights. -/
theorem pay8_apply (v55 v64 : FVec Ideal S512x32 .f32) (v72 : Vec Ideal S32x32 .f32) (v77 : Vec Ideal S1x32 .f32)
    (v97 : Vec Ideal S1x32 .f32) (r : Fin 512) (z : Fin 1) :
    k0_pay8 (F := Ideal) v55 v64 v72 v77 v97 (ix2 r z)
      = ∑ n : Fin 32, Cert.Net.lcl (Cert.Net.lin
          (fun j => v64 (ix2 r j) + Cert.Net.slope * (max (v55 (ix2 r j)) Cert.Net.oneW - Cert.Net.oneW))
          (fun n k => v72 (ix2 n k)) (fun n => v77 (ix2 (0 : Fin 1) n)) n) * v97 (ix2 z n) := by
  unfold k0_pay8
  simp only [shapeCast_self]
  rw [dotO_plain]
  refine (mm_apply _ v97 _ _ r z).trans (Finset.sum_congr rfl fun n _ => congrArg (· * _) ?_)
  show Cert.Net.lcl (matmul (F := Ideal) _ none _ _ _ (ix2 r n) + broadcastTo S512x32 v77 _ (ix2 r n)) = _
  rw [broadcastTo_1b_ab_apply, dot2_plain]
  unfold Cert.Net.lin
  exact congrArg Cert.Net.lcl (congrArg (· + _) (mm_apply _ v72 _ _ r n))

/-- The output tile's row `r`: the three dense layers with their ramps over the accumulator plus the doubled bias. -/
theorem out_apply (v25 : Vec Ideal S1x256 .f32) (v28 : Vec Ideal S512x512 .f32) (v47 : Vec Ideal S32x512 .f32)
    (v52 : Vec Ideal S1x32 .f32) (v72 : Vec Ideal S32x32 .f32) (v77 : Vec Ideal S1x32 .f32) (v97 : Vec Ideal S1x32 .f32)
    (v102 : Vec Ideal S1x1 .f32) (r : Fin 512) (z : Fin 1) :
    k0_pay5 (F := Ideal) (k0_pay8 (k0_pay6 v25 v28 v47 v52) (k0_pay7 v25 v28 v47 v52) v72 v77 v97) (k0_pay9 v102) (ix2 r z)
      = Cert.Net.lin (fun j => Cert.Net.lcl (Cert.Net.lin (fun j => Cert.Net.lcl (Cert.Net.lin
            (fun j => Cert.Net.lcl (v28 (ix2 r j) + cat2 v25 j)) (fun n k => v47 (ix2 n k))
            (fun n => v52 (ix2 (0 : Fin 1) n)) j)) (fun n k => v72 (ix2 n k)) (fun n => v77 (ix2 (0 : Fin 1) n)) j))
          (fun z n => v97 (ix2 z n)) (fun z => v102 (ix2 (0 : Fin 1) z)) z := by
  have e : (fun j : Fin 32 => k0_pay7 (F := Ideal) v25 v28 v47 v52 (ix2 r j)
        + Cert.Net.slope * (max (k0_pay6 (F := Ideal) v25 v28 v47 v52 (ix2 r j)) Cert.Net.oneW - Cert.Net.oneW))
      = fun j => Cert.Net.lcl (Cert.Net.lin (fun j => Cert.Net.lcl (v28 (ix2 r j) + cat2 v25 j)) (fun n k => v47 (ix2 n k))
          (fun n => v52 (ix2 (0 : Fin 1) n)) j) := by
    funext j
    rw [pay7_apply, pay6_apply]
    rfl
  unfold k0_pay5 k0_pay9
  simp only [shapeCast_self]
  rw [addf_apply, broadcastTo_1b_ab_apply, pay8_apply, e]
  rfl

end Cert.KernelIdeal.KVal

end
-- ==== Proof.KPieces.lean ====
/-
  What the body leaves in the carried accumulator, and in the output tile, per control case.

  The accumulator is a 512 × 512 scratch. Every point adds to its left half the first feature block's product with
  the weight block and to its right half the second feature block's; the two stores are the two halves, so together
  they cover the scratch and leave "what it held plus the block's addend" everywhere. At a row tile's first column
  block a store of zeros comes first, and the accumulating loads read that store back, so the point leaves the zero
  word plus the addend and what the scratch held before does not matter. At the last column block the output tile is
  the three dense layers over the scratch as the point's own two stores left it.
-/
import proofs.«156107_j63977832841234_1_alg».proof.Proof.Gen.KernelIdeal.Value
import proofs.«156107_j63977832841234_1_alg».proof.Proof.KVal
import Idealize.ShloMosaic.Lib.Pipeline.Value
import Idealize.ShloMosaic.Lib.Tactic

set_option maxRecDepth 16384

noncomputable section

namespace Cert.KernelIdeal.KP

open Cert.KernelIdeal Cert.KernelIdeal.Gen Cert.KernelIdeal.KVal Idealize.ShloMosaic Idealize.ShloMosaic.ValueIdx
open Idealize.ShloMosaic.TcCoe Idealize.ShloMosaic.Tactic Idealize.SL.Sem

/-- A matrix read at natural coordinates, zero outside it. -/
def at2 {a b : ℕ} (X : (⟨2, ![a, b]⟩ : Shape).Idx → EReal) (p q : ℕ) : EReal :=
  if h : p < a ∧ q < b then X (ix2 ⟨p, h.1⟩ ⟨q, h.2⟩) else 0

theorem at2_eq {a b : ℕ} (X : (⟨2, ![a, b]⟩ : Shape).Idx → EReal) (p q : ℕ) (r : Fin a) (j : Fin b) (hp : p = r.val)
    (hq : q = j.val) : at2 X p q = X (ix2 r j) := by
  subst hp hq
  unfold at2
  rw [dif_pos ⟨r.isLt, j.isLt⟩]

/-- What one column block adds to the accumulator at row `p`, column `q`: the row of the first feature block against
    row `q` of the weight block for the left 256 columns, the second feature block against row `q − 256` for the rest. -/
def addendN (x0 x1 : Vec Ideal S512x1664 .f32) (x2 : Vec Ideal S256x1664 .f32) (p q : ℕ) : EReal :=
  if q < 256 then ∑ kk : Fin 1664, at2 x0 p kk.val * at2 x2 q kk.val
  else ∑ kk : Fin 1664, at2 x1 p kk.val * at2 x2 (q - 256) kk.val

/-- The same at an index of the accumulator. -/
def addend (x0 x1 : Vec Ideal S512x1664 .f32) (x2 : Vec Ideal S256x1664 .f32) (y : S512x512.Idx) : EReal :=
  addendN x0 x1 x2 (y 0).val (y 1).val

theorem hz2 : (![0, 0] : Fin 2 → ℕ) = fun _ => 0 := by
  funext a; match a with | ⟨0, _⟩ => rfl | ⟨1, _⟩ => rfl

/-- The accumulator's left half, `[0, 512) × [0, 256)`, -/
abbrev rL : Rect S512x512 := Rect.unit ![0, 0] ![512, 256] inb_S512x512_S512x256_0_0
/-- and its right half, `[0, 512) × [256, 512)`. -/
abbrev rR : Rect S512x512 := Rect.unit ![0, 256] ![512, 256] inb_S512x512_S512x256_0_256

/-- The body's two accumulating stores over contents `base`: each half gets its slice of `base` plus the block's product. -/
abbrev tiles (x0 x1 : Vec Ideal S512x1664 .f32) (x2 : Vec Ideal S256x1664 .f32) (base : Vec Ideal S512x512 .f32) :
    List (View.Piece (Elt Ideal) S512x512 .f32) :=
  [⟨rR, k0_pay4 (F := Ideal) x1 x2 (View.ld base rR)⟩, ⟨rL, k0_pay3 (F := Ideal) x0 x2 (View.ld base rL)⟩]

theorem mem_halves (y : S512x512.Idx) : y ∈ rR.set ∨ y ∈ rL.set := by
  have h0 := idx2_lt0 y
  have h1 := idx2_lt1 y
  by_cases h : (y 1).val < 256
  · right
    rw [Rect.mem_set_unit]
    intro a
    match a with
    | ⟨0, _⟩ => exact ⟨Nat.zero_le _, by show (y 0).val < 0 + 512; omega⟩
    | ⟨1, _⟩ => exact ⟨Nat.zero_le _, by show (y 1).val < 0 + 256; omega⟩
  · left
    rw [Rect.mem_set_unit]
    intro a
    match a with
    | ⟨0, _⟩ => exact ⟨Nat.zero_le _, by show (y 0).val < 0 + 512; omega⟩
    | ⟨1, _⟩ => exact ⟨by show 256 ≤ (y 1).val; omega, by show (y 1).val < 256 + 256; omega⟩

theorem tiles_cover (x0 x1 : Vec Ideal S512x1664 .f32) (x2 : Vec Ideal S256x1664 .f32) (base : Vec Ideal S512x512 .f32)
    (y : S512x512.Idx) : ∃ p ∈ tiles x0 x1 x2 base, y ∈ p.1.set := by
  rcases mem_halves y with h | h
  · exact ⟨_, List.mem_cons_self, h⟩
  · exact ⟨_, List.mem_cons_of_mem _ List.mem_cons_self, h⟩

/-- The two stores leave `base` plus the block's addend, everywhere. -/
theorem canon_tiles (x0 x1 : Vec Ideal S512x1664 .f32) (x2 : Vec Ideal S256x1664 .f32) (base : Vec Ideal S512x512 .f32) :
    View.canon (tiles x0 x1 x2 base) = fun y => base y + addend x0 x1 x2 y := by
  funext y
  refine View.canon_apply_of_pieces (fun y => base y + addend x0 x1 x2 y) _ ?_ y (tiles_cover x0 x1 x2 base y)
  intro p hp x
  simp only [List.mem_cons, List.not_mem_nil, or_false] at hp
  rcases hp with rfl | rfl
  · obtain ⟨r, j, rfl⟩ : ∃ (r : Fin 512) (j : Fin 256), x = ix2 r j := ⟨x 0, x 1, eq_ix2 x⟩
    show k0_pay4 (F := Ideal) x1 x2 (View.ld base rR) (ix2 r j)
      = base (rR.emb (ix2 r j)) + addendN x0 x1 x2 (0 + 1 * r.val) (256 + 1 * j.val)
    rw [pay4_apply]
    unfold addendN
    rw [if_neg (show ¬ (256 + 1 * j.val < 256) by omega)]
    refine congrArg₂ (· + ·) rfl (Finset.sum_congr rfl fun kk _ => ?_)
    rw [at2_eq x1 _ _ r kk (by omega) rfl, at2_eq x2 _ _ j kk (by omega) rfl]
  · obtain ⟨r, j, rfl⟩ : ∃ (r : Fin 512) (j : Fin 256), x = ix2 r j := ⟨x 0, x 1, eq_ix2 x⟩
    show k0_pay3 (F := Ideal) x0 x2 (View.ld base rL) (ix2 r j)
      = base (rL.emb (ix2 r j)) + addendN x0 x1 x2 (0 + 1 * r.val) (0 + 1 * j.val)
    rw [pay3_apply]
    unfold addendN
    rw [if_pos (show 0 + 1 * j.val < 256 by have := j.isLt; omega)]
    refine congrArg₂ (· + ·) rfl (Finset.sum_congr rfl fun kk _ => ?_)
    rw [at2_eq x0 _ _ r kk (by omega) rfl, at2_eq x2 _ _ j kk (by omega) rfl]

/-- Case B (a middle column block): the scratch ends at what it held plus the block's addend. -/
theorem stepB (c : Dev nD) (i : grid0.Coords) (arg2 : Memref sig .tc .vmem S512x1664 .f32) (harg2 : arg2.IsWhole) (arg3 : Memref sig .tc .vmem S512x1664 .f32) (harg3 : arg3.IsWhole) (arg4 : Memref sig .tc .vmem S256x1664 .f32) (harg4 : arg4.IsWhole) (arg5 : Memref sig .tc .vmem S1x256 .f32) (harg5 : arg5.IsWhole) (arg6 : Memref sig .tc .vmem S32x512 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x1 .f32) (harg11 : arg11.IsWhole) (arg12 : Memref sig .tc .vmem S512x1 .f32) (harg12 : arg12.IsWhole) (arg13 : Memref sig .tc .vmem S512x512 .f32) (harg13 : arg13.IsWhole) (hc0 : ¬cond0_0 i) (hc1 : ¬cond0_1 i)
    (x0 : Vec Ideal S512x1664 .f32) (x1 : Vec Ideal S512x1664 .f32) (x2 : Vec Ideal S256x1664 .f32) (x3 : Vec Ideal S1x256 .f32) (x4 : Vec Ideal S32x512 .f32) (x5 : Vec Ideal S1x32 .f32) (x6 : Vec Ideal S32x32 .f32) (x7 : Vec Ideal S1x32 .f32) (x8 : Vec Ideal S1x32 .f32) (x9 : Vec Ideal S1x1 .f32) (xs0 : Vec Ideal S512x512 .f32) :
    sout0_B_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 = fun y => xs0 y + addend x0 x1 x2 y := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1664) hz2, View.ld_unit_zero (S := S256x1664) hz2, View.ld_unit_zero (S := S1x256) hz2, View.ld_unit_zero (S := S32x512) hz2, View.ld_unit_zero (S := S1x32) hz2, View.ld_unit_zero (S := S32x32) hz2, View.ld_unit_zero (S := S1x1) hz2, View.ld_unit_zero (S := S512x1) hz2, View.ld_unit_zero (S := S512x512) hz2]
  exact canon_tiles x0 x1 x2 xs0

/-- Case C (the last column block): the scratch likewise. -/
theorem stepC (c : Dev nD) (i : grid0.Coords) (arg2 : Memref sig .tc .vmem S512x1664 .f32) (harg2 : arg2.IsWhole) (arg3 : Memref sig .tc .vmem S512x1664 .f32) (harg3 : arg3.IsWhole) (arg4 : Memref sig .tc .vmem S256x1664 .f32) (harg4 : arg4.IsWhole) (arg5 : Memref sig .tc .vmem S1x256 .f32) (harg5 : arg5.IsWhole) (arg6 : Memref sig .tc .vmem S32x512 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x1 .f32) (harg11 : arg11.IsWhole) (arg12 : Memref sig .tc .vmem S512x1 .f32) (harg12 : arg12.IsWhole) (arg13 : Memref sig .tc .vmem S512x512 .f32) (harg13 : arg13.IsWhole) (hc0 : ¬cond0_0 i) (hc1 : cond0_1 i)
    (x0 : Vec Ideal S512x1664 .f32) (x1 : Vec Ideal S512x1664 .f32) (x2 : Vec Ideal S256x1664 .f32) (x3 : Vec Ideal S1x256 .f32) (x4 : Vec Ideal S32x512 .f32) (x5 : Vec Ideal S1x32 .f32) (x6 : Vec Ideal S32x32 .f32) (x7 : Vec Ideal S1x32 .f32) (x8 : Vec Ideal S1x32 .f32) (x9 : Vec Ideal S1x1 .f32) (xs0 : Vec Ideal S512x512 .f32) :
    sout0_C_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 = fun y => xs0 y + addend x0 x1 x2 y := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1664) hz2, View.ld_unit_zero (S := S256x1664) hz2, View.ld_unit_zero (S := S1x256) hz2, View.ld_unit_zero (S := S32x512) hz2, View.ld_unit_zero (S := S1x32) hz2, View.ld_unit_zero (S := S32x32) hz2, View.ld_unit_zero (S := S1x1) hz2, View.ld_unit_zero (S := S512x1) hz2, View.ld_unit_zero (S := S512x512) hz2]
  exact canon_tiles x0 x1 x2 xs0

/-- Case C's output block: the three dense layers over the scratch as the point's two stores left it. -/
theorem outC (c : Dev nD) (i : grid0.Coords) (arg2 : Memref sig .tc .vmem S512x1664 .f32) (harg2 : arg2.IsWhole) (arg3 : Memref sig .tc .vmem S512x1664 .f32) (harg3 : arg3.IsWhole) (arg4 : Memref sig .tc .vmem S256x1664 .f32) (harg4 : arg4.IsWhole) (arg5 : Memref sig .tc .vmem S1x256 .f32) (harg5 : arg5.IsWhole) (arg6 : Memref sig .tc .vmem S32x512 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x1 .f32) (harg11 : arg11.IsWhole) (arg12 : Memref sig .tc .vmem S512x1 .f32) (harg12 : arg12.IsWhole) (arg13 : Memref sig .tc .vmem S512x512 .f32) (harg13 : arg13.IsWhole) (hc0 : ¬cond0_0 i) (hc1 : cond0_1 i)
    (x0 : Vec Ideal S512x1664 .f32) (x1 : Vec Ideal S512x1664 .f32) (x2 : Vec Ideal S256x1664 .f32) (x3 : Vec Ideal S1x256 .f32) (x4 : Vec Ideal S32x512 .f32) (x5 : Vec Ideal S1x32 .f32) (x6 : Vec Ideal S32x32 .f32) (x7 : Vec Ideal S1x32 .f32) (x8 : Vec Ideal S1x32 .f32) (x9 : Vec Ideal S1x1 .f32) (xs0 : Vec Ideal S512x512 .f32) :
    out0_C_10 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0
      = k0_pay5 (F := Ideal) (k0_pay8 (k0_pay6 x3 (fun y => xs0 y + addend x0 x1 x2 y) x4 x5)
          (k0_pay7 x3 (fun y => xs0 y + addend x0 x1 x2 y) x4 x5) x6 x7 x8) (k0_pay9 x9) := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1664) hz2, View.ld_unit_zero (S := S256x1664) hz2, View.ld_unit_zero (S := S1x256) hz2, View.ld_unit_zero (S := S32x512) hz2, View.ld_unit_zero (S := S1x32) hz2, View.ld_unit_zero (S := S32x32) hz2, View.ld_unit_zero (S := S1x1) hz2, View.ld_unit_zero (S := S512x1) hz2, View.ld_unit_zero (S := S512x512) hz2]
  rw [View.canon_unit_zero hz2]
  have e : arg13.view.readCov (tiles x0 x1 x2 xs0) (Rect.unit ![0, 0] ![512, 512] inb_S512x512_S512x512_0_0).toLoadRect
      = fun y => xs0 y + addend x0 x1 x2 y := by
    rw [View.readCov_eq_canon_ld _ _ _ (tiles_cover x0 x1 x2 xs0), View.ld_unit_zero (S := S512x512) hz2, canon_tiles]
  rw [e]

/-- The whole accumulator as one rectangle. -/
abbrev rW : Rect S512x512 := Rect.unit ![0, 0] ![512, 512] inb_S512x512_S512x512_0_0

/-- A load after one store of the whole accumulator reads that store's payload through the load's rectangle. -/
theorem readCov_whole {sig : RefSig} {κ : Kind} {sp : Space} (v : View sig κ sp S512x512 .f32) (w : Vec Ideal S512x512 .f32)
    (r : Rect S512x512) :
    v.readCov [(⟨rW, w⟩ : View.Piece (Elt Ideal) S512x512 .f32)] r.toLoadRect = View.ld w r := by
  rw [View.readCov_eq_canon_ld _ _ _ (fun y => ⟨_, List.mem_singleton_self _, View.mem_set_unit_zero hz2 inb_S512x512_S512x512_0_0 y⟩),
    View.canon_unit_zero hz2]

theorem idx_right_not_left (j : rR.shape.Idx) : rR.idx j ∉ rL.set := by
  rw [Rect.mem_set_unit]
  intro h
  have h1 := (h 1).2
  have e : ((rR.idx j) 1 : ℕ) = 256 + 1 * (j 1 : ℕ) := rfl
  rw [e] at h1
  have : (![0, 0] : Fin 2 → ℕ) 1 + (![512, 256] : Fin 2 → ℕ) 1 = 256 := rfl
  omega

/-- A load of the right half after a store of the left half and, before it, of the whole: the left store does not
    reach it, so it reads the whole store's payload. -/
theorem readCov_right {sig : RefSig} {κ : Kind} {sp : Space} (v : View sig κ sp S512x512 .f32) (wL : Vec Ideal S512x256 .f32)
    (w : Vec Ideal S512x512 .f32) :
    v.readCov [(⟨rL, wL⟩ : View.Piece (Elt Ideal) S512x512 .f32), ⟨rW, w⟩] rR.toLoadRect = View.ld w rR := by
  rw [View.readCov_eq_canon']
  funext j
  refine (View.canon_cons_of_not_mem (⟨rL, wL⟩ : View.Piece (Elt Ideal) S512x512 .f32) [⟨rW, w⟩]
    (idx_right_not_left j)).trans ?_
  exact congrFun (View.canon_unit_zero hz2 inb_S512x512_S512x512_0_0 w) _

/-- Where two stores between them cover the buffer, earlier stores do not show. -/
theorem canon_two_cover (p1 p2 : View.Piece (Elt Ideal) S512x512 .f32) (L : List (View.Piece (Elt Ideal) S512x512 .f32))
    (hcov : ∀ y, y ∈ p1.1.set ∨ y ∈ p2.1.set) : View.canon (p1 :: p2 :: L) = View.canon [p1, p2] := by
  funext y
  by_cases h1 : y ∈ p1.1.set
  · obtain ⟨x, rfl⟩ := p1.1.exists_idx_of_mem h1
    obtain ⟨r1, w1⟩ := p1
    show View.canon (⟨r1, w1⟩ :: _) (r1.emb x) = View.canon [⟨r1, w1⟩, p2] (r1.emb x)
    rw [View.canon_cons_emb, View.canon_cons_emb]
  · rw [View.canon_cons_of_not_mem _ _ h1, View.canon_cons_of_not_mem _ _ h1]
    have h2 := (hcov y).resolve_left h1
    obtain ⟨x, rfl⟩ := p2.1.exists_idx_of_mem h2
    obtain ⟨r2, w2⟩ := p2
    show View.canon (⟨r2, w2⟩ :: _) (r2.emb x) = View.canon [⟨r2, w2⟩] (r2.emb x)
    rw [View.canon_cons_emb, View.canon_cons_emb]

/-- Case A (a row tile's first column block): the scratch is zeroed and then accumulated into, so it ends at the
    zero word plus the block's addend. -/
theorem stepA (c : Dev nD) (i : grid0.Coords) (arg2 : Memref sig .tc .vmem S512x1664 .f32) (harg2 : arg2.IsWhole) (arg3 : Memref sig .tc .vmem S512x1664 .f32) (harg3 : arg3.IsWhole) (arg4 : Memref sig .tc .vmem S256x1664 .f32) (harg4 : arg4.IsWhole) (arg5 : Memref sig .tc .vmem S1x256 .f32) (harg5 : arg5.IsWhole) (arg6 : Memref sig .tc .vmem S32x512 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x1 .f32) (harg11 : arg11.IsWhole) (arg12 : Memref sig .tc .vmem S512x1 .f32) (harg12 : arg12.IsWhole) (arg13 : Memref sig .tc .vmem S512x512 .f32) (harg13 : arg13.IsWhole) (hc0 : cond0_0 i) (hc1 : ¬cond0_1 i)
    (x0 : Vec Ideal S512x1664 .f32) (x1 : Vec Ideal S512x1664 .f32) (x2 : Vec Ideal S256x1664 .f32) (x3 : Vec Ideal S1x256 .f32) (x4 : Vec Ideal S32x512 .f32) (x5 : Vec Ideal S1x32 .f32) (x6 : Vec Ideal S32x32 .f32) (x7 : Vec Ideal S1x32 .f32) (x8 : Vec Ideal S1x32 .f32) (x9 : Vec Ideal S1x1 .f32) :
    sout0_A_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 = fun y => Cert.Net.zeroW + addend x0 x1 x2 y := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1664) hz2, View.ld_unit_zero (S := S256x1664) hz2, View.ld_unit_zero (S := S1x256) hz2, View.ld_unit_zero (S := S32x512) hz2, View.ld_unit_zero (S := S1x32) hz2, View.ld_unit_zero (S := S32x32) hz2, View.ld_unit_zero (S := S1x1) hz2, View.ld_unit_zero (S := S512x1) hz2, View.ld_unit_zero (S := S512x512) hz2]
  rw [readCov_whole, readCov_right, canon_two_cover]
  · refine (canon_tiles x0 x1 x2 (k0_pay1 (F := Ideal))).trans ?_
    funext y
    rw [pay1_apply]
  · exact mem_halves

end Cert.KernelIdeal.KP

end
-- ==== Proof.KBlocks.lean ====
/-
  The kernel's blocks as parts of the argument arrays.

  The grid has 8 × 25 points; point t is row tile t / 25 and column block t % 25. The two feature windows stage
  the 512 × 1664 tile at (t / 25, t % 25) of their arrays, the transform's matrix window the 256 × 1664 column
  block t % 25, and the remaining input windows stage their whole arrays at every point; four of those arrays
  are the bias vectors given a leading unit axis by a host operation before the region, so they read the
  vectors at the column. The result window writes rows 512 · (t / 25) … of the one result column back at the
  last column block of each row tile, and these eight row tiles cover the result array.
-/
import proofs.«156107_j63977832841234_1_alg».proof.Proof.Gen.KernelIdeal.Value
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.KBlocks

open Cert.KernelIdeal Cert.KernelIdeal.Gen Idealize.ShloMosaic Idealize.ShloMosaic.ValueIdx

variable {F : FTy → Type} [FloatOps F] (m : (ℓ : Loc nD τ sig) → Buf (Elt F) ℓ)

/-! ## The index maps over the grid -/

/-- The tiled windows: the feature windows and the result window move with the row tile t / 25, the feature
    windows and the matrix window with the column block t % 25. -/
theorem idx_tiled : ∀ t : Fin cfg0.N,
    win0_0.index t (0 : Fin 2) = t.val / 25 ∧ win0_0.index t (1 : Fin 2) = t.val % 25
    ∧ win0_1.index t (0 : Fin 2) = t.val / 25 ∧ win0_1.index t (1 : Fin 2) = t.val % 25
    ∧ win0_2.index t (0 : Fin 2) = 0 ∧ win0_2.index t (1 : Fin 2) = t.val % 25
    ∧ win0_10.index t (0 : Fin 2) = t.val / 25 ∧ win0_10.index t (1 : Fin 2) = 0 :=
  (by decide +kernel : ∀ t : Fin grid0.N, _)

/-- The other windows stay at block (0, 0). -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-! ## The tiled input windows -/

/-- The first feature window at point t: entry (r, kk) of its block is entry (512 · (t / 25) + r, 1664 · (t % 25) + kk)
    of the first feature array. -/
theorem iblk0_apply (c : Dev nD) (t : Fin cfg0.N) (r : Fin 512) (kk : Fin 1664) (R : Fin 4096) (K : Fin 41600)
    (hR : R.val = 512 * (t.val / 25) + r.val) (hK : K.val = 1664 * (t.val % 25) + kk.val) :
    (iblk m c 0 t : Vec F S512x1664 .f32) (ix2 r kk) = m ((c.tc : Thread nD τ).loc main_arg0) (ix2 R K) := by
  obtain ⟨e0, e1, -⟩ := idx_tiled t
  unfold iblk
  rw [View.read_apply]
  show V m c main_arg0 _ = m ((c.tc : Thread nD τ).loc main_arg0) _
  rw [V_main_arg0]
  congr 1
  funext a; apply Fin.ext
  match a with
  | ⟨0, _⟩ => show win0_0.index t (0 : Fin 2) * 512 + 1 * r.val = R.val; omega
  | ⟨1, _⟩ => show win0_0.index t (1 : Fin 2) * 1664 + 1 * kk.val = K.val; omega

/-- The second feature window at point t: the same tile of the second feature array. -/
theorem iblk1_apply (c : Dev nD) (t : Fin cfg0.N) (r : Fin 512) (kk : Fin 1664) (R : Fin 4096) (K : Fin 41600)
    (hR : R.val = 512 * (t.val / 25) + r.val) (hK : K.val = 1664 * (t.val % 25) + kk.val) :
    (iblk m c 1 t : Vec F S512x1664 .f32) (ix2 r kk) = m ((c.tc : Thread nD τ).loc main_arg1) (ix2 R K) := by
  obtain ⟨-, -, e0, e1, -⟩ := idx_tiled t
  unfold iblk
  rw [View.read_apply]
  show V m c main_arg1 _ = m ((c.tc : Thread nD τ).loc main_arg1) _
  rw [V_main_arg1]
  congr 1
  funext a; apply Fin.ext
  match a with
  | ⟨0, _⟩ => show win0_1.index t (0 : Fin 2) * 512 + 1 * r.val = R.val; omega
  | ⟨1, _⟩ => show win0_1.index t (1 : Fin 2) * 1664 + 1 * kk.val = K.val; omega

/-- The transform's matrix window at point t: entry (j, kk) of its block is entry (j, 1664 · (t % 25) + kk) of the matrix. -/
theorem iblk2_apply (c : Dev nD) (t : Fin cfg0.N) (j : Fin 256) (kk : Fin 1664) (K : Fin 41600)
    (hK : K.val = 1664 * (t.val % 25) + kk.val) :
    (iblk m c 2 t : Vec F S256x1664 .f32) (ix2 j kk) = m ((c.tc : Thread nD τ).loc main_arg2) (ix2 j K) := by
  obtain ⟨-, -, -, -, e0, e1, -⟩ := idx_tiled t
  unfold iblk
  rw [View.read_apply]
  show V m c main_arg2 _ = m ((c.tc : Thread nD τ).loc main_arg2) _
  rw [V_main_arg2]
  congr 1
  funext a; apply Fin.ext
  match a with
  | ⟨0, _⟩ => show win0_2.index t (0 : Fin 2) * 256 + 1 * j.val = j.val; omega
  | ⟨1, _⟩ => show win0_2.index t (1 : Fin 2) * 1664 + 1 * kk.val = K.val; omega

/-! ## The windows that stage a whole weight matrix -/

/-- The first dense layer's matrix window at any point is the matrix. -/
theorem iblk4_apply (c : Dev nD) (t : Fin cfg0.N) (n : Fin 32) (k : Fin 512) :
    (iblk m c 4 t : Vec F S32x512 .f32) (ix2 n k) = m ((c.tc : Thread nD τ).loc main_arg4) (ix2 n k) := by
  obtain ⟨-, -, e0, e1, -⟩ := idx_whole t
  unfold iblk
  rw [View.read_apply]
  show V m c main_arg4 _ = m ((c.tc : Thread nD τ).loc main_arg4) _
  rw [V_main_arg4]
  congr 1
  funext a; apply Fin.ext
  match a with
  | ⟨0, _⟩ => show win0_4.index t (0 : Fin 2) * 32 + 1 * n.val = n.val; omega
  | ⟨1, _⟩ => show win0_4.index t (1 : Fin 2) * 512 + 1 * k.val = k.val; omega

/-- The second dense layer's matrix window at any point is the matrix. -/
theorem iblk6_apply (c : Dev nD) (t : Fin cfg0.N) (n k : Fin 32) :
    (iblk m c 6 t : Vec F S32x32 .f32) (ix2 n k) = m ((c.tc : Thread nD τ).loc main_arg6) (ix2 n k) := by
  obtain ⟨-, -, -, -, -, -, e0, e1, -⟩ := idx_whole t
  unfold iblk
  rw [View.read_apply]
  show V m c main_arg6 _ = m ((c.tc : Thread nD τ).loc main_arg6) _
  rw [V_main_arg6]
  congr 1
  funext a; apply Fin.ext
  match a with
  | ⟨0, _⟩ => show win0_6.index t (0 : Fin 2) * 32 + 1 * n.val = n.val; omega
  | ⟨1, _⟩ => show win0_6.index t (1 : Fin 2) * 32 + 1 * k.val = k.val; omega

/-- The output layer's matrix window at any point is the one-row matrix. -/
theorem iblk8_apply (c : Dev nD) (t : Fin cfg0.N) (z : Fin 1) (n : Fin 32) :
    (iblk m c 8 t : Vec F S1x32 .f32) (ix2 z n) = m ((c.tc : Thread nD τ).loc main_arg8) (ix2 z n) := by
  obtain ⟨-, -, -, -, -, -, -, -, -, -, e0, e1, -⟩ := idx_whole t
  unfold iblk
  rw [View.read_apply]
  show V m c main_arg8 _ = m ((c.tc : Thread nD τ).loc main_arg8) _
  rw [V_main_arg8]
  congr 1
  funext a; apply Fin.ext
  match a with
  | ⟨0, _⟩ => show win0_8.index t (0 : Fin 2) * 1 + 1 * z.val = z.val; omega
  | ⟨1, _⟩ => show win0_8.index t (1 : Fin 2) * 32 + 1 * n.val = n.val; omega

/-! ## A bias vector given a leading unit axis before the region -/

/-- The transform's bias as the region finds it: the 256-vector at shape [1, 256]. -/
theorem V_v0 (c : Dev nD) :
    (V m c main_v0 : S1x256.Idx → Elt F .f32)
      = shapeCast S1x256 (m ((c.tc : Thread nD τ).loc main_arg3) : S256.Idx → Elt F .f32) shapeCasts_S256_S1x256 := by
  dsimp only [V, hostOps0]; after_results; rfl

/-- Its window at any point: entry (0, j) of the block is entry j of the bias vector. -/
theorem iblk3_apply (c : Dev nD) (t : Fin cfg0.N) (j : Fin 256) :
    (iblk m c 3 t : Vec F S1x256 .f32) (ix2 (0 : Fin 1) j) = m ((c.tc : Thread nD τ).loc main_arg3) (ix1 j) := by
  obtain ⟨e0, e1, -⟩ := idx_whole t
  unfold iblk
  rw [View.read_apply]
  show V m c main_v0 _ = _
  have hi : ((cfg0.win 3).blk t).view.emb (ix2 (0 : Fin 1) j) = ix2 (0 : Fin 1) j := by
    funext a; apply Fin.ext
    match a with
    | ⟨0, _⟩ => show win0_3.index t (0 : Fin 2) * 1 + 1 * 0 = 0; omega
    | ⟨1, _⟩ => show win0_3.index t (1 : Fin 2) * 256 + 1 * j.val = j.val; omega
  rw [hi, V_v0, shapeCast_a_1a_apply]

/-- The first dense layer's bias as the region finds it: the 32-vector at shape [1, 32]. -/
theorem V_v1 (c : Dev nD) :
    (V m c main_v1 : S1x32.Idx → Elt F .f32)
      = shapeCast S1x32 (m ((c.tc : Thread nD τ).loc main_arg5) : S32.Idx → Elt F .f32) shapeCasts_S32_S1x32 := by
  dsimp only [V, hostOps0]; after_results; rfl

/-- Its window at any point: entry (0, n) of the block is entry n of the bias vector. -/
theorem iblk5_apply (c : Dev nD) (t : Fin cfg0.N) (n : Fin 32) :
    (iblk m c 5 t : Vec F S1x32 .f32) (ix2 (0 : Fin 1) n) = m ((c.tc : Thread nD τ).loc main_arg5) (ix1 n) := by
  obtain ⟨-, -, -, -, e0, e1, -⟩ := idx_whole t
  unfold iblk
  rw [View.read_apply]
  show V m c main_v1 _ = _
  have hi : ((cfg0.win 5).blk t).view.emb (ix2 (0 : Fin 1) n) = ix2 (0 : Fin 1) n := by
    funext a; apply Fin.ext
    match a with
    | ⟨0, _⟩ => show win0_5.index t (0 : Fin 2) * 1 + 1 * 0 = 0; omega
    | ⟨1, _⟩ => show win0_5.index t (1 : Fin 2) * 32 + 1 * n.val = n.val; omega
  rw [hi, V_v1, shapeCast_a_1a_apply]

/-- The second dense layer's bias as the region finds it: the 32-vector at shape [1, 32]. -/
theorem V_v2 (c : Dev nD) :
    (V m c main_v2 : S1x32.Idx → Elt F .f32)
      = shapeCast S1x32 (m ((c.tc : Thread nD τ).loc main_arg7) : S32.Idx → Elt F .f32) shapeCasts_S32_S1x32 := by
  dsimp only [V, hostOps0]; after_results; rfl

/-- Its window at any point: entry (0, n) of the block is entry n of the bias vector. -/
theorem iblk7_apply (c : Dev nD) (t : Fin cfg0.N) (n : Fin 32) :
    (iblk m c 7 t : Vec F S1x32 .f32) (ix2 (0 : Fin 1) n) = m ((c.tc : Thread nD τ).loc main_arg7) (ix1 n) := by
  obtain ⟨-, -, -, -, -, -, -, -, e0, e1, -⟩ := idx_whole t
  unfold iblk
  rw [View.read_apply]
  show V m c main_v2 _ = _
  have hi : ((cfg0.win 7).blk t).view.emb (ix2 (0 : Fin 1) n) = ix2 (0 : Fin 1) n := by
    funext a; apply Fin.ext
    match a with
    | ⟨0, _⟩ => show win0_7.index t (0 : Fin 2) * 1 + 1 * 0 = 0; omega
    | ⟨1, _⟩ => show win0_7.index t (1 : Fin 2) * 32 + 1 * n.val = n.val; omega
  rw [hi, V_v2, shapeCast_a_1a_apply]

/-- The output layer's bias as the region finds it: the one number at shape [1, 1]. -/
theorem V_v3 (c : Dev nD) :
    (V m c main_v3 : S1x1.Idx → Elt F .f32)
      = shapeCast S1x1 (m ((c.tc : Thread nD τ).loc main_arg9) : S1.Idx → Elt F .f32) shapeCasts_S1_S1x1 := by
  dsimp only [V, hostOps0]; after_results; rfl

/-- Its window at any point: entry (0, z) of the block is entry z of the one-entry bias vector. -/
theorem iblk9_apply (c : Dev nD) (t : Fin cfg0.N) (z : Fin 1) :
    (iblk m c 9 t : Vec F S1x1 .f32) (ix2 (0 : Fin 1) z) = m ((c.tc : Thread nD τ).loc main_arg9) (ix1 z) := by
  obtain ⟨-, -, -, -, -, -, -, -, -, -, -, -, e0, e1⟩ := idx_whole t
  unfold iblk
  rw [View.read_apply]
  show V m c main_v3 _ = _
  have hi : ((cfg0.win 9).blk t).view.emb (ix2 (0 : Fin 1) z) = ix2 (0 : Fin 1) z := by
    funext a; apply Fin.ext
    match a with
    | ⟨0, _⟩ => show win0_9.index t (0 : Fin 2) * 1 + 1 * 0 = 0; omega
    | ⟨1, _⟩ => show win0_9.index t (1 : Fin 2) * 1 + 1 * z.val = z.val; omega
  rw [hi, V_v3, shapeCast_a_1a_apply]

/-! ## The result window -/

/-- Every entry of the result column is in the block written back at the last column block of its row tile. -/
theorem cover10 (i : S4096x1.Idx) :
    ∃ t : Fin cfg0.N, (cfg0.win 10).flush t = true ∧ i ∈ ((cfg0.win 10).blk t).view.set := by
  have h0 : (i 0).val < 4096 := (i 0).isLt
  have h1 : (i 1).val < 1 := (i 1).isLt
  have hN : cfg0.N = 200 := N_0
  let t : Fin cfg0.N := ⟨25 * ((i 0).val / 512) + 24, by rw [hN]; omega⟩
  have ht : t.val = 25 * ((i 0).val / 512) + 24 := rfl
  obtain ⟨-, -, -, -, -, -, e0, e1⟩ := idx_tiled t
  refine ⟨t, (flush0_10 t).mpr (by omega), ?_⟩
  show i ∈ ((View.whole main_v4).slice (win0_10.rect t)).set
  rw [View.set_slice_whole, Rect.mem_set_unit]
  intro a
  match a with
  | ⟨0, _⟩ =>
    show win0_10.index t (0 : Fin 2) * 512 ≤ (i 0).val ∧ (i 0).val < win0_10.index t (0 : Fin 2) * 512 + 512
    omega
  | ⟨1, _⟩ =>
    show win0_10.index t (1 : Fin 2) * 1 ≤ (i 1).val ∧ (i 1).val < win0_10.index t (1 : Fin 2) * 1 + 1
    omega

/-- What a point at the last column block writes back: a 512-row column that agrees, row by row, with rows
    512 · (t / 25) … of a whole result column is that column read through the point's block. -/
theorem cut10_eq (c : Dev nD) (t : Fin cfg0.N) (h24 : t.val % 25 = 24) (v : Vec F S512x1 .f32)
    (Gf : Buf (Elt F) ((c.tc : Thread nD τ).loc main_v4))
    (hv : ∀ (r : Fin 512) (z : Fin 1) (R : Fin 4096), R.val = 512 * (t.val / 25) + r.val → v (ix2 r z) = Gf (ix2 R z)) :
    (cfg0.win 10).cut (grid0.coords t) v = ((cfg0.win 10).blk t).view.read (Elt F) Gf := by
  have hN : cfg0.N = 200 := N_0
  have htN : t.val < 200 := lt_of_lt_of_eq t.isLt hN
  obtain ⟨-, -, -, -, -, -, e0, e1⟩ := idx_tiled t
  refine funext fun (j : S512x1.Idx) => ?_
  obtain ⟨r, z, rfl⟩ : ∃ (r : Fin 512) (z : Fin 1), j = ix2 r z := ⟨j 0, j 1, eq_ix2 j⟩
  rw [View.read_apply]
  show v (ix2 r z) = Gf (((cfg0.win 10).blk t).view.emb (ix2 r z))
  rw [hv r z ⟨512 * (t.val / 25) + r.val, by have := r.isLt; omega⟩ rfl]
  congr 1
  funext a; apply Fin.ext
  match a with
  | ⟨0, _⟩ => show 512 * (t.val / 25) + r.val = win0_10.index t (0 : Fin 2) * 512 + 1 * r.val; omega
  | ⟨1, _⟩ => show z.val = win0_10.index t (1 : Fin 2) * 1 + 1 * z.val; omega

end Cert.KernelIdeal.KBlocks

end
-- ==== Proof.KFold.lean ====
/-
  The kernel's result array is the network on every batch row.

  The grid runs 25 column blocks for each of 8 row tiles. Over a row tile's points the carried accumulator is a fold:
  the zero word at the tile's first point plus one addend per point, each addend the product of that point's feature
  blocks with its weight block. A point's blocks are slices of the argument arrays, so the 25 addends at (r, j) are the
  25 blocks of the contraction over all 41600 columns, and a sum over 25 · 1664 positions is the sum over the blocks of
  the sums inside them; on the extended reals this needs only that addition is commutative and associative. The
  accumulator at the last point plus the doubled bias is therefore the feature transform of the batch row, the output
  tile written back there is the three dense layers over it, and the eight tiles written back cover the result array.
-/
import proofs.«156107_j63977832841234_1_alg».proof.Proof.Gen.KernelIdeal.Value
import proofs.«156107_j63977832841234_1_alg».proof.Proof.KPieces
import proofs.«156107_j63977832841234_1_alg».proof.Proof.KBlocks
import Idealize.ShloMosaic.Lib.Pipeline.Value

set_option maxRecDepth 16384

noncomputable section

namespace Cert.KernelIdeal.KFold

open Cert.KernelIdeal Cert.KernelIdeal.Gen Cert.KernelIdeal.KVal Cert.KernelIdeal.KP Cert.KernelIdeal.KBlocks
open Idealize.ShloMosaic Idealize.ShloMosaic.ValueIdx Idealize.ShloMosaic.TcCoe Idealize.SL.Sem

variable (m : (ℓ : Loc nD τ sig) → Buf (Elt Ideal) ℓ)

/-- Point `n`'s addend to the accumulator (zero past the grid, where it is never used). -/
def Mpt (c : Dev nD) (n : ℕ) (y : S512x512.Idx) : EReal :=
  if h : n < cfg0.N then addend (iblk m c 0 ⟨n, h⟩) (iblk m c 1 ⟨n, h⟩) (iblk m c 2 ⟨n, h⟩) y else 0

theorem Mpt_eq (c : Dev nD) (n : ℕ) (hb : n < cfg0.N) (y : S512x512.Idx) :
    Mpt m c n y = addend (iblk m c 0 ⟨n, hb⟩) (iblk m c 1 ⟨n, hb⟩) (iblk m c 2 ⟨n, hb⟩) y := by
  unfold Mpt
  rw [dif_pos hb]

/-- At a row tile's first point the scratch ends at the zero word plus the point's addend, whatever it held. -/
theorem sc_reset (c : Dev nD) (n : ℕ) (hb : n < cfg0.N) (h0 : n % 25 = 0) (acc : Vec Ideal S512x512 .f32) :
    Value.scAt0_0 m c n hb acc = fun y => Cert.Net.zeroW + Mpt m c n y := by
  have h1 : ¬ n % 25 = 24 := by omega
  unfold Value.scAt0_0
  rw [dif_pos h0, dif_neg h1]
  refine (stepA c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N))).trans ?_
  funext y
  rw [Mpt_eq m c n hb]

/-- At every other point it ends at what it held plus the point's addend. -/
theorem sc_step (c : Dev nD) (n : ℕ) (hb : n < cfg0.N) (h0 : ¬ n % 25 = 0) (acc : Vec Ideal S512x512 .f32) :
    Value.scAt0_0 m c n hb acc = fun y => acc y + Mpt m c n y := by
  unfold Value.scAt0_0
  rw [dif_neg h0]
  by_cases h1 : n % 25 = 24
  · rw [dif_pos h1]
    refine (stepC c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) acc).trans ?_
    funext y
    rw [Mpt_eq m c n hb]
  · rw [dif_neg h1]
    refine (stepB c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) acc).trans ?_
    funext y
    rw [Mpt_eq m c n hb]

/-- THE ACCUMULATOR AFTER POINT `t`: the zero word plus the addends of the row tile's points up to `t`. -/
theorem scratch_after (c : Dev nD) (t : Fin cfg0.N) (y : S512x512.Idx) :
    (outsAt0 m c t.val t.isLt).2 y
      = Cert.Net.zeroW + ∑ s ∈ Finset.range (t.val % 25 + 1), Mpt m c (25 * (t.val / 25) + s) y := by
  have hN : t.val < 200 := lt_of_lt_of_eq t.isLt (show cfg0.N = 200 from N_0)
  rw [Value.soutsAt0_0_eq m c t]
  exact Pipeline.accAt_add_apply (ι := S512x512.Idx) (β := EReal)
    (fun n h => Value.scAt0_0 m c n h (VS0_0.read (Elt Ideal) VS0_0.junk)) (Value.scAt0_0 m c)
    (fun _ => Cert.Net.zeroW) (Mpt m c) (25 * (t.val / 25)) 24
    (fun h y => by rw [sc_reset m c _ h (by omega)])
    (fun n h acc y hlt hle => by rw [sc_step m c n h (by omega) acc])
    (t.val % 25) (by omega) _ y

/-- At a row tile's last point the scratch is what the point before left plus this point's addend. -/
theorem scr_eq (c : Dev nD) (t : Fin cfg0.N) (h0 : ¬ t.val % 25 = 0) (h1 : t.val % 25 = 24) :
    (outsAt0 m c t.val t.isLt).2 = fun y => (outsAt0 m c (t.val - 1) (Nat.lt_of_le_of_lt (Nat.sub_le _ _) t.isLt)).2 y
      + addend (iblk m c 0 t) (iblk m c 1 t) (iblk m c 2 t) y := by
  rw [outsAt0_C m c t h0 h1]
  dsimp only
  exact stepC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) _

/-- Point `25 q + s`'s addend at a column of the left half: the first feature array's row `R` against the matrix's
    row `j`, over the columns of block `s`. -/
theorem Mpt_left (c : Dev nD) (q s : ℕ) (hq : q < 8) (hs : s < 25) (r : Fin 512) (j : Fin 256) (R : Fin 4096)
    (hR : R.val = 512 * q + r.val) (J : Fin 512) (hJ : J.val = j.val) :
    Mpt m c (25 * q + s) (ix2 r J)
      = ∑ x : Fin 1664, at2 (m ((c.tc : Thread nD τ).loc main_arg0)) R.val (1664 * s + x.val) * at2 (m ((c.tc : Thread nD τ).loc main_arg2)) j.val (1664 * s + x.val) := by
  have hb : 25 * q + s < cfg0.N := by rw [show cfg0.N = 200 from N_0]; omega
  rw [Mpt_eq m c _ hb]
  show addendN _ _ _ r.val J.val = _
  unfold addendN
  rw [if_pos (show J.val < 256 by omega)]
  refine Finset.sum_congr rfl fun x _ => ?_
  have hK : 1664 * s + x.val < 41600 := by have := x.isLt; omega
  rw [at2_eq _ _ _ r x rfl rfl, at2_eq _ _ _ j x hJ rfl,
    at2_eq (m ((c.tc : Thread nD τ).loc main_arg0)) _ _ R ⟨1664 * s + x.val, hK⟩ rfl rfl, at2_eq (m ((c.tc : Thread nD τ).loc main_arg2)) _ _ j ⟨1664 * s + x.val, hK⟩ rfl rfl,
    iblk0_apply m c ⟨25 * q + s, hb⟩ r x R ⟨1664 * s + x.val, hK⟩ (by show R.val = 512 * ((25 * q + s) / 25) + r.val; omega)
      (by show 1664 * s + x.val = 1664 * ((25 * q + s) % 25) + x.val; omega),
    iblk2_apply m c ⟨25 * q + s, hb⟩ j x ⟨1664 * s + x.val, hK⟩
      (by show 1664 * s + x.val = 1664 * ((25 * q + s) % 25) + x.val; omega)]

/-- The same at a column of the right half, from the second feature array. -/
theorem Mpt_right (c : Dev nD) (q s : ℕ) (hq : q < 8) (hs : s < 25) (r : Fin 512) (j : Fin 256) (R : Fin 4096)
    (hR : R.val = 512 * q + r.val) (J : Fin 512) (hJ : J.val = 256 + j.val) :
    Mpt m c (25 * q + s) (ix2 r J)
      = ∑ x : Fin 1664, at2 (m ((c.tc : Thread nD τ).loc main_arg1)) R.val (1664 * s + x.val) * at2 (m ((c.tc : Thread nD τ).loc main_arg2)) j.val (1664 * s + x.val) := by
  have hb : 25 * q + s < cfg0.N := by rw [show cfg0.N = 200 from N_0]; omega
  rw [Mpt_eq m c _ hb]
  show addendN _ _ _ r.val J.val = _
  unfold addendN
  rw [if_neg (show ¬ J.val < 256 by omega)]
  refine Finset.sum_congr rfl fun x _ => ?_
  have hK : 1664 * s + x.val < 41600 := by have := x.isLt; omega
  rw [at2_eq _ _ _ r x rfl rfl, at2_eq _ _ _ j x (by omega) rfl,
    at2_eq (m ((c.tc : Thread nD τ).loc main_arg1)) _ _ R ⟨1664 * s + x.val, hK⟩ rfl rfl, at2_eq (m ((c.tc : Thread nD τ).loc main_arg2)) _ _ j ⟨1664 * s + x.val, hK⟩ rfl rfl,
    iblk1_apply m c ⟨25 * q + s, hb⟩ r x R ⟨1664 * s + x.val, hK⟩ (by show R.val = 512 * ((25 * q + s) / 25) + r.val; omega)
      (by show 1664 * s + x.val = 1664 * ((25 * q + s) % 25) + x.val; omega),
    iblk2_apply m c ⟨25 * q + s, hb⟩ j x ⟨1664 * s + x.val, hK⟩
      (by show 1664 * s + x.val = 1664 * ((25 * q + s) % 25) + x.val; omega)]

/-- The blocks' sums regrouped: 25 blocks of 1664 columns are the 41600 columns. -/
theorem blocks_sum {a b : ℕ} (X : (⟨2, ![a, 41600]⟩ : Shape).Idx → EReal) (Y : (⟨2, ![b, 41600]⟩ : Shape).Idx → EReal)
    (R : Fin a) (j : Fin b) :
    Cert.Net.zeroW + ∑ s ∈ Finset.range 25, ∑ x : Fin 1664, at2 X R.val (1664 * s + x.val) * at2 Y j.val (1664 * s + x.val)
      = ∑ K : Fin 41600, X (ix2 R K) * Y (ix2 j K) := by
  rw [← Cert.Net.sum_fin_blocks 25 1664 (fun K => at2 X R.val K * at2 Y j.val K),
    show Cert.Net.zeroW = (0 : EReal) from Ideal.ofBits_zero_f32, zero_add]
  show ∑ K : Fin 41600, at2 X R.val K.val * at2 Y j.val K.val = _
  refine Finset.sum_congr rfl fun K _ => ?_
  rw [at2_eq X _ _ R K rfl rfl, at2_eq Y _ _ j K rfl rfl]

/-- THE ACCUMULATOR AT A ROW TILE'S LAST POINT, plus the doubled bias: the feature transform of the batch row. -/
theorem scr_ft (c : Dev nD) (t : Fin cfg0.N) (h24 : t.val % 25 = 24) (r : Fin 512) (J : Fin 512) (R : Fin 4096)
    (hR : R.val = 512 * (t.val / 25) + r.val) :
    (outsAt0 m c t.val t.isLt).2 (ix2 r J) + cat2 (iblk m c 3 t) J
      = Cert.Net.ft (fun K => (m ((c.tc : Thread nD τ).loc main_arg0)) (ix2 R K)) (fun K => (m ((c.tc : Thread nD τ).loc main_arg1)) (ix2 R K)) (fun j K => (m ((c.tc : Thread nD τ).loc main_arg2)) (ix2 j K))
          (fun j => (m ((c.tc : Thread nD τ).loc main_arg3)) (ix1 j)) J := by
  have hN : t.val < 200 := lt_of_lt_of_eq t.isLt (show cfg0.N = 200 from N_0)
  rw [scratch_after, h24]
  unfold Cert.Net.ft cat2
  by_cases h : J.val < 256
  · rw [dif_pos h, dif_pos h, iblk3_apply,
      Finset.sum_congr rfl (fun s hs => Mpt_left m c (t.val / 25) s (by omega) (Finset.mem_range.mp hs) r ⟨J.val, h⟩ R hR J rfl),
      blocks_sum]
    rfl
  · have hJ := J.isLt
    rw [dif_neg h, dif_neg h, iblk3_apply,
      Finset.sum_congr rfl (fun s hs => Mpt_right m c (t.val / 25) s (by omega) (Finset.mem_range.mp hs) r
        ⟨J.val - 256, by omega⟩ R hR J (by show J.val = 256 + (J.val - 256); omega)),
      blocks_sum]
    rfl

/-- A dense layer depends on its row, weights and bias only through their entries. -/
theorem lin_congr3 {K N : ℕ} {h h' : Fin K → EReal} {W W' : Fin N → Fin K → EReal} {b b' : Fin N → EReal}
    (eh : ∀ k, h k = h' k) (eW : ∀ n k, W n k = W' n k) (eb : ∀ n, b n = b' n) (n : Fin N) :
    Cert.Net.lin h W b n = Cert.Net.lin h' W' b' n := by
  rw [show h = h' from funext eh, show W = W' from funext fun n => funext (eW n), show b = b' from funext eb]

/-- What the result array ends with: the network on every batch row of the argument arrays. -/
abbrev Gk (c : Dev nD) : Buf (Elt Ideal) ((c.tc : Thread nD τ).loc main_v4) :=
  Cert.Net.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- WHAT A ROW TILE'S LAST POINT WRITES BACK: the tile's rows of `Gk`. The output tile is the three dense layers over
    the accumulator plus the doubled bias, the accumulator there is the feature transform of the batch row, and the
    weight and bias windows hold the whole arrays. -/
theorem flushed_eq (c : Dev nD) (t : Fin cfg0.N) (hf : (cfg0.win 10).flush t = true) :
    (dats m 0 c).flushed 10 t = ((cfg0.win 10).blk t).view.read (Elt Ideal) (Gk m c) := by
  have h24 : t.val % 25 = 24 := (flush0_10 t).mp hf
  have h1 : t.val % 25 = 24 := h24
  have h0 : ¬ t.val % 25 = 0 := by omega
  rw [Value.flushed10_C m c t h0 h24]
  refine cut10_eq c t h24 _ (Gk m c) fun r z R hR => ?_
  obtain rfl : z = 0 := Subsingleton.elim _ _
  refine (congrFun (outC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) _) (ix2 r 0)).trans ?_
  rw [out_apply]
  show _ = Cert.Net.net _ _ _ _ _ _ _ _ _ _
  unfold Cert.Net.net
  refine lin_congr3 (fun j => congrArg Cert.Net.lcl (lin_congr3 (fun j => congrArg Cert.Net.lcl (lin_congr3
    (fun j => congrArg Cert.Net.lcl ?_) (fun n k => iblk4_apply m c t n k) (fun n => iblk5_apply m c t n) j))
    (fun n k => iblk6_apply m c t n k) (fun n => iblk7_apply m c t n) j))
    (fun z n => iblk8_apply m c t z n) (fun z => iblk9_apply m c t z) 0
  exact (congrArg (· + _) (congrFun (scr_eq m c t h0 h24) (ix2 r j)).symm).trans (scr_ft m c t h24 r j R hR)

/-- The eight row tiles cover the result array, so it ends at `Gk`. -/
theorem final (c : Dev nD) : (dats m 0 c).arrAt 10 cfg0.N = Gk m c :=
  (dats m 0 c).arrAt_eq_of_cover 10 (Gk m c) (fun t hf => flushed_eq m c t hf) cover10

/-- The kernel's run, with the result array at `Gk` and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v4) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (final m c), (h c).2⟩) (Value.run_blocks m ρ)

end Cert.KernelIdeal.KFold

end
-- ==== Proof.RefNet.lean ====
/-
  The reference program computes the network of Net.lean, entry by entry.

  The program is a chain of whole-array operations: two contractions of a feature row against the transposed
  256 × 41600 matrix with the bias added, joined side by side; the clipped leaky ramp, operation by operation;
  three more contractions against transposed weight matrices with their biases, the ramp after the first two.
  Each stage is read here at one batch row r and one column, from the inside out: the value of the stage at
  (r, j) is the corresponding layer of Net.net on row r at entry j. A contraction against a transposed matrix
  reads the matrix output-major, which is how Net.lin takes it; a bias broadcast first to one row and then down
  the batch reads the bias at the column; the joined array reads its first piece at columns below 256 and its
  second piece, 256 columns to the left, from there on.
-/
import proofs.«156107_j63977832841234_1_alg».proof.Proof.Gen.ReferenceIdeal.Read
import proofs.«156107_j63977832841234_1_alg».proof.Proof.Net
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Cert.Net
open Idealize.ShloMosaic.ValueIdx (ix1 ix2)

/-- Two rank-2 indices agree when their two coordinates do. -/
local macro "idx2" : tactic =>
  `(tactic| exact funext fun a => Fin.ext (by match a with | ⟨0, _⟩ => rfl | ⟨1, _⟩ => rfl))
/-- Two rank-1 indices agree when their coordinate does. -/
local macro "idx1" : tactic =>
  `(tactic| exact funext fun a => Fin.ext (by match a with | ⟨0, _⟩ => rfl))

variable (x0 x1 : FVec Ideal S4096x41600 .f32) (x2 : FVec Ideal S256x41600 .f32) (x3 : FVec Ideal S256 .f32)
  (x4 : FVec Ideal S32x512 .f32) (x5 : FVec Ideal S32 .f32) (x6 : FVec Ideal S32x32 .f32) (x7 : FVec Ideal S32 .f32)
  (x8 : FVec Ideal S1x32 .f32) (x9 : FVec Ideal S1 .f32)

/-! ## The layers on one batch row -/

/-- The ramp of the feature transform on batch row r: 512 numbers. -/
def h0 (r : Fin 4096) : Fin 512 → EReal := fun j =>
  lcl (ft (fun K => x0 (ix2 r K)) (fun K => x1 (ix2 r K)) (fun c K => x2 (ix2 c K)) (fun c => x3 (ix1 c)) j)

/-- The ramp of the first dense layer on batch row r: 32 numbers. -/
def h1 (r : Fin 4096) : Fin 32 → EReal := fun n =>
  lcl (lin (h0 x0 x1 x2 x3 r) (fun n k => x4 (ix2 n k)) (fun n => x5 (ix1 n)) n)

/-- The ramp of the second dense layer on batch row r: 32 numbers. -/
def h2 (r : Fin 4096) : Fin 32 → EReal := fun n =>
  lcl (lin (h1 x0 x1 x2 x3 x4 x5 r) (fun n k => x6 (ix2 n k)) (fun n => x7 (ix1 n)) n)

/-! ## The feature transform -/

/-- The first half: row r of the first features against row c of the matrix, plus the bias at c. -/
theorem v4_at (r : Fin 4096) (c : Fin 256) :
    val_main_v4 (F := Ideal) x0 x2 x3 (ix2 r c)
      = lin (fun K => x0 (ix2 r K)) (fun c K => x2 (ix2 c K)) (fun c => x3 (ix1 c)) c := by
  rw [val_main_v4_apply, val_main_v1_apply, val_main_v3_apply, val_main_v2_apply]
  have hs : ∀ k : Fin 41600,
      x0 (lidx_main_v1 (ix2 r c) k) * val_main_v0 (F := Ideal) x2 (ridx_main_v1 (ix2 r c) k)
        = x0 (ix2 r k) * x2 (ix2 c k) := fun k => by
    rw [val_main_v0_apply, show lidx_main_v1 (ix2 r c) k = ix2 r k by idx2,
      show idx_main_v0 (ridx_main_v1 (ix2 r c) k) = ix2 c k by idx2]
  rw [Finset.sum_congr rfl fun k _ => hs k, show idx_main_v2 (idx_main_v3 (ix2 r c)) = ix1 c by idx1]
  rfl

/-- The second half: the same with the second features. -/
theorem v9_at (r : Fin 4096) (c : Fin 256) :
    val_main_v9 (F := Ideal) x1 x2 x3 (ix2 r c)
      = lin (fun K => x1 (ix2 r K)) (fun c K => x2 (ix2 c K)) (fun c => x3 (ix1 c)) c := by
  rw [val_main_v9_apply, val_main_v6_apply, val_main_v8_apply, val_main_v7_apply]
  have hs : ∀ k : Fin 41600,
      x1 (lidx_main_v6 (ix2 r c) k) * val_main_v5 (F := Ideal) x2 (ridx_main_v6 (ix2 r c) k)
        = x1 (ix2 r k) * x2 (ix2 c k) := fun k => by
    rw [val_main_v5_apply, show lidx_main_v6 (ix2 r c) k = ix2 r k by idx2,
      show idx_main_v5 (ridx_main_v6 (ix2 r c) k) = ix2 c k by idx2]
  rw [Finset.sum_congr rfl fun k _ => hs k, show idx_main_v7 (idx_main_v8 (ix2 r c)) = ix1 c by idx1]
  rfl

/-- The two halves side by side are the feature transform of row r. -/
theorem v10_at (r : Fin 4096) (j : Fin 512) :
    val_main_v10 (F := Ideal) x0 x1 x2 x3 (ix2 r j)
      = ft (fun K => x0 (ix2 r K)) (fun K => x1 (ix2 r K)) (fun c K => x2 (ix2 c K)) (fun c => x3 (ix1 c)) j := by
  unfold val_main_v10 ft
  by_cases h : j.val < 256
  · rw [dif_pos h, ← v4_at x0 x2 x3 r ⟨j.val, h⟩]
    exact concatenate_pair_apply_left (t := S4096x512) (s₁ := S4096x256) (s₂ := S4096x256) 1 _ _ _ (ix2 r j) rfl
      (ix2 r ⟨j.val, h⟩) (fun b => match b with | ⟨0, _⟩ => rfl | ⟨1, _⟩ => rfl)
  · have hj : j.val - 256 < 256 := by have := j.isLt; omega
    rw [dif_neg h, ← v9_at x1 x2 x3 r ⟨j.val - 256, hj⟩]
    exact concatenate_pair_apply_right (t := S4096x512) (s₁ := S4096x256) (s₂ := S4096x256) 1 _ _ _ (ix2 r j) rfl rfl
      (ix2 r ⟨j.val - 256, hj⟩)
      (fun b hb => match b, hb with | ⟨0, _⟩, _ => rfl | ⟨1, _⟩, hb => absurd rfl hb)
      (by show j.val - 256 + 256 = j.val; omega)

/-- The ramp after the feature transform. -/
theorem v23_at (r : Fin 4096) (j : Fin 512) :
    val_main_v23 (F := Ideal) x0 x1 x2 x3 (ix2 r j) = h0 x0 x1 x2 x3 r j := by
  rw [val_main_v23_apply, val_main_v16_apply, val_main_v22_apply, val_main_v14_apply, val_main_v15_apply,
    val_main_v20_apply, val_main_v12_apply, val_main_v18_apply, val_main_call0_v2_apply,
    val_main_v13_apply, val_main_cst_0_apply, val_main_v11_apply, val_main_cst_apply,
    val_main_call0_v4_apply, val_main_call0_v3_apply, val_main_cst_2_apply,
    val_main_call0_v1_apply, val_main_call0_v0_apply, val_main_cst_1_apply,
    val_main_v17_apply, val_main_cst_3_apply, val_main_v19_apply, val_main_cst_4_apply,
    val_main_v21_apply, val_main_cst_5_apply, v10_at]
  rfl

/-! ## The first dense layer -/

/-- Row r of the ramped transform against row n of the first weight matrix, plus the bias at n. -/
theorem v28_at (r : Fin 4096) (n : Fin 32) :
    val_main_v28 (F := Ideal) x0 x1 x2 x3 x4 x5 (ix2 r n)
      = lin (h0 x0 x1 x2 x3 r) (fun n k => x4 (ix2 n k)) (fun n => x5 (ix1 n)) n := by
  rw [val_main_v28_apply, val_main_v25_apply, val_main_v27_apply, val_main_v26_apply]
  have hs : ∀ k : Fin 512,
      val_main_v23 (F := Ideal) x0 x1 x2 x3 (lidx_main_v25 (ix2 r n) k)
          * val_main_v24 (F := Ideal) x4 (ridx_main_v25 (ix2 r n) k)
        = h0 x0 x1 x2 x3 r k * x4 (ix2 n k) := fun k => by
    rw [show lidx_main_v25 (ix2 r n) k = ix2 r k by idx2, v23_at, val_main_v24_apply,
      show idx_main_v24 (ridx_main_v25 (ix2 r n) k) = ix2 n k by idx2]
  rw [Finset.sum_congr rfl fun k _ => hs k, show idx_main_v26 (idx_main_v27 (ix2 r n)) = ix1 n by idx1]
  rfl

/-- The ramp after the first dense layer. -/
theorem v41_at (r : Fin 4096) (n : Fin 32) :
    val_main_v41 (F := Ideal) x0 x1 x2 x3 x4 x5 (ix2 r n) = h1 x0 x1 x2 x3 x4 x5 r n := by
  rw [val_main_v41_apply, val_main_v34_apply, val_main_v40_apply, val_main_v32_apply, val_main_v33_apply,
    val_main_v38_apply, val_main_v30_apply, val_main_v36_apply, val_main_call1_v2_apply,
    val_main_v31_apply, val_main_cst_7_apply, val_main_v29_apply, val_main_cst_6_apply,
    val_main_call1_v4_apply, val_main_call1_v3_apply, val_main_cst_9_apply,
    val_main_call1_v1_apply, val_main_call1_v0_apply, val_main_cst_8_apply,
    val_main_v35_apply, val_main_cst_10_apply, val_main_v37_apply, val_main_cst_11_apply,
    val_main_v39_apply, val_main_cst_12_apply, v28_at]
  rfl

/-! ## The second dense layer -/

/-- Row r of the first layer's output against row n of the second weight matrix, plus the bias at n. -/
theorem v46_at (r : Fin 4096) (n : Fin 32) :
    val_main_v46 (F := Ideal) x0 x1 x2 x3 x4 x5 x6 x7 (ix2 r n)
      = lin (h1 x0 x1 x2 x3 x4 x5 r) (fun n k => x6 (ix2 n k)) (fun n => x7 (ix1 n)) n := by
  rw [val_main_v46_apply, val_main_v43_apply, val_main_v45_apply, val_main_v44_apply]
  have hs : ∀ k : Fin 32,
      val_main_v41 (F := Ideal) x0 x1 x2 x3 x4 x5 (lidx_main_v43 (ix2 r n) k)
          * val_main_v42 (F := Ideal) x6 (ridx_main_v43 (ix2 r n) k)
        = h1 x0 x1 x2 x3 x4 x5 r k * x6 (ix2 n k) := fun k => by
    rw [show lidx_main_v43 (ix2 r n) k = ix2 r k by idx2, v41_at, val_main_v42_apply,
      show idx_main_v42 (ridx_main_v43 (ix2 r n) k) = ix2 n k by idx2]
  rw [Finset.sum_congr rfl fun k _ => hs k, show idx_main_v44 (idx_main_v45 (ix2 r n)) = ix1 n by idx1]
  rfl

/-- The ramp after the second dense layer. -/
theorem v59_at (r : Fin 4096) (n : Fin 32) :
    val_main_v59 (F := Ideal) x0 x1 x2 x3 x4 x5 x6 x7 (ix2 r n) = h2 x0 x1 x2 x3 x4 x5 x6 x7 r n := by
  rw [val_main_v59_apply, val_main_v52_apply, val_main_v58_apply, val_main_v50_apply, val_main_v51_apply,
    val_main_v56_apply, val_main_v48_apply, val_main_v54_apply, val_main_call2_v2_apply,
    val_main_v49_apply, val_main_cst_14_apply, val_main_v47_apply, val_main_cst_13_apply,
    val_main_call2_v4_apply, val_main_call2_v3_apply, val_main_cst_16_apply,
    val_main_call2_v1_apply, val_main_call2_v0_apply, val_main_cst_15_apply,
    val_main_v53_apply, val_main_cst_17_apply, val_main_v55_apply, val_main_cst_18_apply,
    val_main_v57_apply, val_main_cst_19_apply, v46_at]
  rfl

/-! ## The output layer -/

/-- Row r of the second layer's output against the one row of the output matrix, plus the one bias. -/
theorem v64_at (r : Fin 4096) (z : Fin 1) :
    val_main_v64 (F := Ideal) x0 x1 x2 x3 x4 x5 x6 x7 x8 x9 (ix2 r z)
      = lin (h2 x0 x1 x2 x3 x4 x5 x6 x7 r) (fun n k => x8 (ix2 n k)) (fun n => x9 (ix1 n)) 0 := by
  obtain rfl : z = 0 := Fin.fin_one_eq_zero z
  rw [val_main_v64_apply, val_main_v61_apply, val_main_v63_apply, val_main_v62_apply]
  have hs : ∀ k : Fin 32,
      val_main_v59 (F := Ideal) x0 x1 x2 x3 x4 x5 x6 x7 (lidx_main_v61 (ix2 r (0 : Fin 1)) k)
          * val_main_v60 (F := Ideal) x8 (ridx_main_v61 (ix2 r (0 : Fin 1)) k)
        = h2 x0 x1 x2 x3 x4 x5 x6 x7 r k * x8 (ix2 (0 : Fin 1) k) := fun k => by
    rw [show lidx_main_v61 (ix2 r (0 : Fin 1)) k = ix2 r k by idx2, v59_at, val_main_v60_apply,
      show idx_main_v60 (ridx_main_v61 (ix2 r (0 : Fin 1)) k) = ix2 (0 : Fin 1) k by idx2]
  rw [Finset.sum_congr rfl fun k _ => hs k,
    show idx_main_v62 (idx_main_v63 (ix2 r (0 : Fin 1))) = ix1 (0 : Fin 1) by idx1]
  rfl

/-! ## The whole program -/

/-- The reference program's result is the network of Net.lean on every batch row. -/
theorem val_eq_G :
    Cert.ReferenceIdeal.Read.val_main_v64 (F := Ideal) x0 x1 x2 x3 x4 x5 x6 x7 x8 x9
      = Cert.Net.G x0 x1 x2 x3 x4 x5 x6 x7 x8 x9 := by
  funext i
  obtain ⟨r, z, rfl⟩ : ∃ (r : Fin 4096) (z : Fin 1), i = ix2 r z := ⟨i 0, i 1, ValueIdx.eq_ix2 i⟩
  rw [v64_at]
  rfl

end Cert.ReferenceIdeal.RefValue

end
-- ==== Proof.lean ====
/-
  The certificate's five claims.

  Both programs compute, for every batch row, the same small network: a feature transform of the row's two feature
  vectors by one shared 256 × 41600 matrix, the clipped leaky ramp, and three dense layers. The kernel does the two big
  contractions 1664 columns at a time, accumulating in a scratch across 25 grid points per row tile, and runs the
  dense layers on the tile at the last of them; the reference contracts over all 41600 columns at once. Over the
  extended reals a change of float format is the identity and a finite sum may be regrouped freely, so the two
  programs end with the same array: `Net.G` of the arguments (KFold.lean for the kernel, RefNet.lean for the
  reference). The precondition is never opened: no step needs finiteness.

  The three frames are the kernel's generated frames and the reference's run with its result dropped; the ideal pass
  rewrote nothing, so the idealized kernel is the kernel's own text read over the extended reals.
-/
import proofs.«156107_j63977832841234_1_alg».proof.Defs
import proofs.«156107_j63977832841234_1_alg».proof.Proof.Gen.Kernel
import proofs.«156107_j63977832841234_1_alg».proof.Proof.Gen.Kernel.Skeleton
import proofs.«156107_j63977832841234_1_alg».proof.Proof.Gen.Kernel.Launch
import proofs.«156107_j63977832841234_1_alg».proof.Proof.Gen.Kernel.Points
import proofs.«156107_j63977832841234_1_alg».proof.Proof.Gen.Kernel.Frame
import proofs.«156107_j63977832841234_1_alg».proof.Proof.Gen.KernelIdeal
import proofs.«156107_j63977832841234_1_alg».proof.Proof.Gen.KernelIdeal.Skeleton
import proofs.«156107_j63977832841234_1_alg».proof.Proof.Gen.KernelIdeal.Launch
import proofs.«156107_j63977832841234_1_alg».proof.Proof.Gen.KernelIdeal.Points
import proofs.«156107_j63977832841234_1_alg».proof.Proof.Gen.KernelIdeal.Frame
import proofs.«156107_j63977832841234_1_alg».proof.Proof.Gen.ReferenceIdeal
import proofs.«156107_j63977832841234_1_alg».proof.Proof.Gen.Pre_finite_inputs
import proofs.«156107_j63977832841234_1_alg».proof.Proof.Gen.KernelIdeal.Value
import proofs.«156107_j63977832841234_1_alg».proof.Proof.Gen.ReferenceIdeal.Run
import proofs.«156107_j63977832841234_1_alg».proof.Proof.Gen.ReferenceIdeal.Read
import proofs.«156107_j63977832841234_1_alg».proof.Proof.KFold
import proofs.«156107_j63977832841234_1_alg».proof.Proof.RefNet
import Idealize.ShloMosaic.Adequacy
import Idealize.ShloMosaic.Init

noncomputable section

namespace Cert.Proof

open Idealize.ShloMosaic Idealize.SL.Sem

/-- The kernel as printed runs, and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, both programs end with the network's value on every batch row. -/
theorem algebraic : Cert.algebraic_KernelIdeal_ReferenceIdeal := by
  intro m ρ m' ρ' _ hagree
  refine ⟨fun c => Cert.KernelIdeal.KFold.Gk m c, Cert.KernelIdeal.KFold.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v64_eq, Cert.ReferenceIdeal.RefValue.val_eq_G, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
